-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x32 : Shape := ⟨3, ![64, 64, 32]⟩
abbrev S32x32 : Shape := ⟨2, ![32, 32]⟩
abbrev S64x64x8 : Shape := ⟨3, ![64, 64, 8]⟩
abbrev S_ : Shape := ⟨0, ![]⟩

class Facts : Prop where
  bcast_S_S64x64x32 : S_.BroadcastsInDim S64x64x32 (![] : Fin 0 → Fin S64x64x32.rank)
  reducesTo_S64x64x32_S_d0_1_2 : S64x64x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S64x64x8 : S_.BroadcastsInDim S64x64x8 (![] : Fin 0 → Fin S64x64x8.rank)
  reducesTo_S64x64x8_S_d0_1_2 : S64x64x8.ReducesTo [0, 1, 2] S_

variable [Facts]

def fn {F : FTy → Type} [FloatOps F] (main_arg0 : FVec F S64x64x32 .f32) (main_arg1 : FVec F S32x32 .f32) (main_arg2 : FVec F S64x64x8 .f32) : IVec S_ 1 :=
  let main_v0 : FVec F S64x64x32 .f32 := Host.absf main_arg0
  let main_cst : FVec F S_ .f32 := constant S_ .f32 0x7F800000#32
  let main_v1 : FVec F S64x64x32 .f32 := broadcastInDim S64x64x32 ![] bcast_S_S64x64x32 main_cst
  let main_v2 : IVec S64x64x32 1 := cmpf .olt main_v0 main_v1
  let main_c : IVec S_ 1 := constantI S_ 1 1#1
  let main_v3 : IVec S_ 1 := (fun x v => Host.reduce IntOp.andi x v reducesTo_S64x64x32_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S64x64x8 .f32 := Host.absf main_arg2
  let main_cst_2 : FVec F S_ .f32 := constant S_ .f32 0x7F800000#32
  let main_v10 : FVec F S64x64x8 .f32 := broadcastInDim S64x64x8 ![] bcast_S_S64x64x8 main_cst_2
  let main_v11 : IVec S64x64x8 1 := cmpf .olt main_v9 main_v10
  let main_c_3 : IVec S_ 1 := constantI S_ 1 1#1
  let main_v12 : IVec S_ 1 := (fun x v => Host.reduce IntOp.andi x v reducesTo_S64x64x8_S_d0_1_2 h_S_) main_v11 main_c_3
  let main_v13 : IVec S_ 1 := andi main_v8 main_v12
  main_v13
-- ==== Kernel.lean ====
abbrev S64x64x32 : Shape := ⟨3, ![64, 64, 32]⟩
abbrev S32x32 : Shape := ⟨2, ![32, 32]⟩
abbrev S64x64x8 : Shape := ⟨3, ![64, 64, 8]⟩
abbrev S1024x128 : Shape := ⟨2, ![1024, 128]⟩
abbrev S256x128 : Shape := ⟨2, ![256, 128]⟩
abbrev S32x4096 : Shape := ⟨2, ![32, 4096]⟩
abbrev S256x16x8 : Shape := ⟨3, ![256, 16, 8]⟩
abbrev S8x256x16 : Shape := ⟨3, ![8, 256, 16]⟩
abbrev S8x4096 : Shape := ⟨2, ![8, 4096]⟩
abbrev S1x32 : Shape := ⟨2, ![1, 32]⟩
abbrev S8x1 : Shape := ⟨2, ![8, 1]⟩
abbrev S8x32 : Shape := ⟨2, ![8, 32]⟩
abbrev S8x32x1 : Shape := ⟨3, ![8, 32, 1]⟩
abbrev S8x1x4096 : Shape := ⟨3, ![8, 1, 4096]⟩
abbrev S8x32x4096 : Shape := ⟨3, ![8, 32, 4096]⟩
abbrev S4096x32 : Shape := ⟨2, ![4096, 32]⟩

abbrev nBuf : Space → Nat
  | .hbm => 8
  | .vmem => 4
  | .smem => 0
  | _ => 0

abbrev bufTy : (tb : Table) → Fin (tcTables nBuf tb) → BufTy
  | .hbm, ⟨0, _⟩ => ⟨S64x64x32, .f32⟩
  | .hbm, ⟨1, _⟩ => ⟨S32x32, .f32⟩
  | .hbm, ⟨2, _⟩ => ⟨S64x64x8, .f32⟩
  | .hbm, ⟨3, _⟩ => ⟨S1024x128, .f32⟩
  | .hbm, ⟨4, _⟩ => ⟨S256x128, .f32⟩
  | .hbm, ⟨5, _⟩ => ⟨S32x4096, .f32⟩
  | .hbm, ⟨6, _⟩ => ⟨S4096x32, .f32⟩
  | .hbm, ⟨7, _⟩ => ⟨S64x64x32, .f32⟩
  | .local _ .vmem, ⟨0, _⟩ => ⟨S1024x128, .f32⟩
  | .local _ .vmem, ⟨1, _⟩ => ⟨S32x32, .f32⟩
  | .local _ .vmem, ⟨2, _⟩ => ⟨S256x128, .f32⟩
  | .local _ .vmem, ⟨3, _⟩ => ⟨S32x4096, .f32⟩
  | _, _ => ⟨S64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  shapeCasts_S64x64x32_S1024x128 : S64x64x32.ShapeCasts S1024x128
  shapeCasts_S64x64x8_S256x128 : S64x64x8.ShapeCasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x16x8 : S256x128.ShapeCasts S256x16x8
  transposes_S256x16x8_p2_0_1_S8x256x16 : S256x16x8.Transposes [2, 0, 1] S8x256x16
  shapeCasts_S8x256x16_S8x4096 : S8x256x16.ShapeCasts S8x4096
  slices_S1024x128_o0_0_S1x32 : S1024x128.Slices ![0, 0] S1x32
  slices_S1024x128_o115_32_S1x32 : S1024x128.Slices ![115, 32] S1x32
  slices_S1024x128_o230_64_S1x32 : S1024x128.Slices ![230, 64] S1x32
  slices_S1024x128_o345_96_S1x32 : S1024x128.Slices ![345, 96] S1x32
  slices_S1024x128_o461_0_S1x32 : S1024x128.Slices ![461, 0] S1x32
  slices_S1024x128_o560_32_S1x32 : S1024x128.Slices ![560, 32] S1x32
  slices_S1024x128_o675_64_S1x32 : S1024x128.Slices ![675, 64] S1x32
  slices_S1024x128_o790_96_S1x32 : S1024x128.Slices ![790, 96] S1x32
  slices_S1024x128_o906_0_S1x32 : S1024x128.Slices ![906, 0] S1x32
  slices_S1024x128_o1021_32_S1x32 : S1024x128.Slices ![1021, 32] S1x32
  slices_S1024x128_o96_64_S1x32 : S1024x128.Slices ![96, 64] S1x32
  slices_S1024x128_o211_96_S1x32 : S1024x128.Slices ![211, 96] S1x32
  slices_S1024x128_o327_0_S1x32 : S1024x128.Slices ![327, 0] S1x32
  slices_S1024x128_o442_32_S1x32 : S1024x128.Slices ![442, 32] S1x32
  slices_S1024x128_o557_64_S1x32 : S1024x128.Slices ![557, 64] S1x32
  slices_S1024x128_o656_96_S1x32 : S1024x128.Slices ![656, 96] S1x32
  slices_S1024x128_o772_0_S1x32 : S1024x128.Slices ![772, 0] S1x32
  slices_S1024x128_o887_32_S1x32 : S1024x128.Slices ![887, 32] S1x32
  slices_S1024x128_o1002_64_S1x32 : S1024x128.Slices ![1002, 64] S1x32
  slices_S1024x128_o93_96_S1x32 : S1024x128.Slices ![93, 96] S1x32
  slices_S1024x128_o193_0_S1x32 : S1024x128.Slices ![193, 0] S1x32
  slices_S1024x128_o308_32_S1x32 : S1024x128.Slices ![308, 32] S1x32
  slices_S1024x128_o423_64_S1x32 : S1024x128.Slices ![423, 64] S1x32
  slices_S1024x128_o538_96_S1x32 : S1024x128.Slices ![538, 96] S1x32
  slices_S1024x128_o654_0_S1x32 : S1024x128.Slices ![654, 0] S1x32
  slices_S1024x128_o753_32_S1x32 : S1024x128.Slices ![753, 32] S1x32
  slices_S1024x128_o868_64_S1x32 : S1024x128.Slices ![868, 64] S1x32
  slices_S1024x128_o983_96_S1x32 : S1024x128.Slices ![983, 96] S1x32
  slices_S1024x128_o75_0_S1x32 : S1024x128.Slices ![75, 0] S1x32
  slices_S1024x128_o190_32_S1x32 : S1024x128.Slices ![190, 32] S1x32
  slices_S1024x128_o289_64_S1x32 : S1024x128.Slices ![289, 64] S1x32
  slices_S1024x128_o404_96_S1x32 : S1024x128.Slices ![404, 96] S1x32
  concatenates_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S32x32_d0 : Shape.Concatenates [S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32, S1x32] S32x32 0
  slices_S8x4096_o0_0_S8x1 : S8x4096.Slices ![0, 0] S8x1
  slices_S8x4096_o0_461_S8x1 : S8x4096.Slices ![0, 461] S8x1
  slices_S8x4096_o0_922_S8x1 : S8x4096.Slices ![0, 922] S8x1
  slices_S8x4096_o0_1383_S8x1 : S8x4096.Slices ![0, 1383] S8x1
  slices_S8x4096_o0_1844_S8x1 : S8x4096.Slices ![0, 1844] S8x1
  slices_S8x4096_o0_2241_S8x1 : S8x4096.Slices ![0, 2241] S8x1
  slices_S8x4096_o0_2702_S8x1 : S8x4096.Slices ![0, 2702] S8x1
  slices_S8x4096_o0_3163_S8x1 : S8x4096.Slices ![0, 3163] S8x1
  slices_S8x4096_o0_3624_S8x1 : S8x4096.Slices ![0, 3624] S8x1
  slices_S8x4096_o0_4085_S8x1 : S8x4096.Slices ![0, 4085] S8x1
  slices_S8x4096_o0_386_S8x1 : S8x4096.Slices ![0, 386] S8x1
  slices_S8x4096_o0_847_S8x1 : S8x4096.Slices ![0, 847] S8x1
  slices_S8x4096_o0_1308_S8x1 : S8x4096.Slices ![0, 1308] S8x1
  slices_S8x4096_o0_1769_S8x1 : S8x4096.Slices ![0, 1769] S8x1
  slices_S8x4096_o0_2230_S8x1 : S8x4096.Slices ![0, 2230] S8x1
  slices_S8x4096_o0_2627_S8x1 : S8x4096.Slices ![0, 2627] S8x1
  slices_S8x4096_o0_3088_S8x1 : S8x4096.Slices ![0, 3088] S8x1
  slices_S8x4096_o0_3549_S8x1 : S8x4096.Slices ![0, 3549] S8x1
  slices_S8x4096_o0_4010_S8x1 : S8x4096.Slices ![0, 4010] S8x1
  slices_S8x4096_o0_375_S8x1 : S8x4096.Slices ![0, 375] S8x1
  slices_S8x4096_o0_772_S8x1 : S8x4096.Slices ![0, 772] S8x1
  slices_S8x4096_o0_1233_S8x1 : S8x4096.Slices ![0, 1233] S8x1
  slices_S8x4096_o0_1694_S8x1 : S8x4096.Slices ![0, 1694] S8x1
  slices_S8x4096_o0_2155_S8x1 : S8x4096.Slices ![0, 2155] S8x1
  slices_S8x4096_o0_2616_S8x1 : S8x4096.Slices ![0, 2616] S8x1
  slices_S8x4096_o0_3013_S8x1 : S8x4096.Slices ![0, 3013] S8x1
  slices_S8x4096_o0_3474_S8x1 : S8x4096.Slices ![0, 3474] S8x1
  slices_S8x4096_o0_3935_S8x1 : S8x4096.Slices ![0, 3935] S8x1
  slices_S8x4096_o0_300_S8x1 : S8x4096.Slices ![0, 300] S8x1
  slices_S8x4096_o0_761_S8x1 : S8x4096.Slices ![0, 761] S8x1
  slices_S8x4096_o0_1158_S8x1 : S8x4096.Slices ![0, 1158] S8x1
  slices_S8x4096_o0_1619_S8x1 : S8x4096.Slices ![0, 1619] S8x1
  concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x32_d1 : Shape.Concatenates [S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1, S8x1] S8x32 1
  inb_S32x32_S32x32_0_0 : ∀ a, (![0, 0] : Fin 2 → Nat) a + S32x32.size a ≤ S32x32.size a
  h_S32x32 : 0 < S32x32.numel
  shapeCasts_S8x32_S8x32x1 : S8x32.ShapeCasts S8x32x1
  shapeCasts_S8x4096_S8x1x4096 : S8x4096.ShapeCasts S8x1x4096
  broadcasts_S8x32x1_S8x32x4096 : S8x32x1.Broadcasts S8x32x4096
  broadcasts_S8x1x4096_S8x32x4096 : S8x1x4096.Broadcasts S8x32x4096
  reduces_S8x32x4096_S32x4096 : S8x32x4096.Reduces [0] S32x4096
  inb_S32x4096_S32x4096_0_0 : ∀ a, (![0, 0] : Fin 2 → Nat) a + S32x4096.size a ≤ S32x4096.size a
  h_S32x4096 : 0 < S32x4096.numel
  transposes_S32x4096_S4096x32_1_0 : S32x4096.Transposes [1, 0] S4096x32
  shapeCasts_S4096x32_S64x64x32 : S4096x32.ShapeCasts S64x64x32
  dot_S32x32_S32x32_S32x32_1_0_0_1_n_n_wf : DotDims.WF S32x32 S32x32 S32x32 [1] [0] [0] [1] [] []
  dot_S32x32_S32x4096_S32x4096_0_0_1_1_n_n_wf : DotDims.WF S32x32 S32x4096 S32x4096 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x4096_S32x4096_0_0_1_1_n_n : DotDims S32x32 S32x4096 S32x4096 where
  lhsContracting := [0]
  rhsContracting := [0]
  lhsNonContracting := [1]
  rhsNonContracting := [1]
  lhsBatch := []
  rhsBatch := []
  wf := dot_S32x32_S32x4096_S32x4096_0_0_1_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x32 : Shape := ⟨3, ![64, 64, 32]⟩
abbrev S32x32 : Shape := ⟨2, ![32, 32]⟩
abbrev S64x64x8 : Shape := ⟨3, ![64, 64, 8]⟩
abbrev S32x2 : Shape := ⟨2, ![32, 2]⟩
abbrev S32x1 : Shape := ⟨2, ![32, 1]⟩
abbrev S32 : Shape := ⟨1, ![32]⟩
abbrev S_ : Shape := ⟨0, ![]⟩
abbrev S32x8 : Shape := ⟨2, ![32, 8]⟩
abbrev S1x1x32x8 : Shape := ⟨4, ![1, 1, 32, 8]⟩
abbrev S64x64x1x8 : Shape := ⟨4, ![64, 64, 1, 8]⟩
abbrev S64x64x32x8 : Shape := ⟨4, ![64, 64, 32, 8]⟩

abbrev nBuf : Space → Nat
  | .hbm => 100
  | .vmem => 0
  | .smem => 0
  | _ => 0

abbrev bufTy : (tb : Table) → Fin (tcTables nBuf tb) → BufTy
  | .hbm, ⟨0, _⟩ => ⟨S64x64x32, .f32⟩
  | .hbm, ⟨1, _⟩ => ⟨S32x32, .f32⟩
  | .hbm, ⟨2, _⟩ => ⟨S64x64x8, .f32⟩
  | .hbm, ⟨3, _⟩ => ⟨S32x2, .i32⟩
  | .hbm, ⟨4, _⟩ => ⟨S32x1, .i32⟩
  | .hbm, ⟨5, _⟩ => ⟨S32, .i32⟩
  | .hbm, ⟨6, _⟩ => ⟨S32x1, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x1, .i32⟩
  | .hbm, ⟨24, _⟩ => ⟨S32x2, .i32⟩
  | .hbm, ⟨25, _⟩ => ⟨S32x8, .f32⟩
  | .hbm, ⟨26, _⟩ => ⟨S1x1x32x8, .f32⟩
  | .hbm, ⟨27, _⟩ => ⟨S64x64x1x8, .f32⟩
  | .hbm, ⟨28, _⟩ => ⟨S64x64x32x8, .f32⟩
  | .hbm, ⟨29, _⟩ => ⟨S64x64x32x8, .f32⟩
  | .hbm, ⟨30, _⟩ => ⟨S64x64x32x8, .f32⟩
  | .hbm, ⟨31, _⟩ => ⟨S64x64x32x8, .f32⟩
  | .hbm, ⟨32, _⟩ => ⟨S64x64x32x8, .f32⟩
  | .hbm, ⟨33, _⟩ => ⟨S64x64x32x8, .f32⟩
  | .hbm, ⟨34, _⟩ => ⟨S_, .f32⟩
  | .hbm, ⟨35, _⟩ => ⟨S64x64x32, .f32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i32⟩
  | .hbm, ⟨49, _⟩ => ⟨S32, .i32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S32, .i1⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S_, .i32⟩
  | .hbm, ⟨67, _⟩ => ⟨S32, .i32⟩
  | .hbm, ⟨68, _⟩ => ⟨S32, .i1⟩
  | .hbm, ⟨69, _⟩ => ⟨S_, .i32⟩
  | .hbm, ⟨70, _⟩ => ⟨S32, .i32⟩
  | .hbm, ⟨71, _⟩ => ⟨S32, .i1⟩
  | .hbm, ⟨72, _⟩ => ⟨S_, .i32⟩
  | .hbm, ⟨73, _⟩ => ⟨S_, .i1⟩
  | .hbm, ⟨74, _⟩ => ⟨S32, .i1⟩
  | .hbm, ⟨75, _⟩ => ⟨S32, .i1⟩
  | .hbm, ⟨76, _⟩ => ⟨S32, .i1⟩
  | .hbm, ⟨77, _⟩ => ⟨S32, .i32⟩
  | .hbm, ⟨78, _⟩ => ⟨S32, .i32⟩
  | .hbm, ⟨79, _⟩ => ⟨S32, .i32⟩
  | .hbm, ⟨80, _⟩ => ⟨S_, .i32⟩
  | .hbm, ⟨81, _⟩ => ⟨S32, .i32⟩
  | .hbm, ⟨82, _⟩ => ⟨S32, .i1⟩
  | .hbm, ⟨83, _⟩ => ⟨S_, .i32⟩
  | .hbm, ⟨84, _⟩ => ⟨S32, .i32⟩
  | .hbm, ⟨85, _⟩ => ⟨S32, .i32⟩
  | .hbm, ⟨86, _⟩ => ⟨S32, .i32⟩
  | .hbm, ⟨87, _⟩ => ⟨S_, .i32⟩
  | .hbm, ⟨88, _⟩ => ⟨S32, .i32⟩
  | .hbm, ⟨89, _⟩ => ⟨S32, .i1⟩
  | .hbm, ⟨90, _⟩ => ⟨S_, .i32⟩
  | .hbm, ⟨91, _⟩ => ⟨S32, .i32⟩
  | .hbm, ⟨92, _⟩ => ⟨S32, .i32⟩
  | .hbm, ⟨93, _⟩ => ⟨S32, .i32⟩
  | .hbm, ⟨94, _⟩ => ⟨S32x1, .i32⟩
  | .hbm, ⟨95, _⟩ => ⟨S32x1, .i32⟩
  | .hbm, ⟨96, _⟩ => ⟨S32x2, .i32⟩
  | .hbm, ⟨97, _⟩ => ⟨S32x32, .f32⟩
  | .hbm, ⟨98, _⟩ => ⟨S32x32, .f32⟩
  | .hbm, ⟨99, _⟩ => ⟨S64x64x32, .f32⟩
  | _, _ => ⟨S64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_c_6 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v31 : Ref sig .tc := ⟨.hbm, 79, rfl⟩
abbrev main_c_7 : Ref sig .tc := ⟨.hbm, 80, rfl⟩
abbrev main_v32 : Ref sig .tc := ⟨.hbm, 81, rfl⟩
abbrev main_v33 : Ref sig .tc := ⟨.hbm, 82, rfl⟩
abbrev main_c_8 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_c_10 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩

abbrev nD : Nat := 1
abbrev τ : Topo := Topo.v7x

variable {F : FTy → Type} [FloatOps F]

class Facts₀ : Prop where
  slices_S32x2_S32x1_0_0 : S32x2.Slices ![0, 0] S32x1
  shapeCasts_S32x1_S32 : S32x1.ShapeCasts S32
  slices_S32x2_S32x1_0_1 : S32x2.Slices ![0, 1] S32x1
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S32x8_S1x1x32x8_2_3 : S32x8.BroadcastsInDim S1x1x32x8 (![2, 3] : Fin 2 → Fin S1x1x32x8.rank)
  bcast_S64x64x8_S64x64x1x8_0_1_3 : S64x64x8.BroadcastsInDim S64x64x1x8 (![0, 1, 3] : Fin 3 → Fin S64x64x1x8.rank)
  bcast_S1x1x32x8_S64x64x32x8_0_1_2_3 : S1x1x32x8.BroadcastsInDim S64x64x32x8 (![0, 1, 2, 3] : Fin 4 → Fin S64x64x32x8.rank)
  bcast_S64x64x1x8_S64x64x32x8_0_1_2_3 : S64x64x1x8.BroadcastsInDim S64x64x32x8 (![0, 1, 2, 3] : Fin 4 → Fin S64x64x32x8.rank)
  reducesTo_S64x64x32x8_S64x64x32_d3 : S64x64x32x8.ReducesTo [3] S64x64x32
  h_S_ : 0 < S_.numel
  gather_S64x64x8_S32x2_S32x8_1_01_n_n_01_1_118_wf : GatherDims.WF S64x64x8 S32x2 S32x8 [1] [0, 1] [] [0, 1] [] 1 ![1, 1, 8]
  gather_S64x64x32_S32x2_S32x32_1_01_n_n_01_1_1132_wf : GatherDims.WF S64x64x32 S32x2 S32x32 [1] [0, 1] [] [0, 1] [] 1 ![1, 1, 32]
  dot_S32x32_S32x32_S32x32_1_0_0_1_n_n_wf : DotDims.WF S32x32 S32x32 S32x32 [1] [0] [0] [1] [] []
  dot_S64x64x32_S32x32_S64x64x32_2_0_01_1_n_n_wf : DotDims.WF S64x64x32 S32x32 S64x64x32 [2] [0] [0, 1] [1] [] []

variable [Facts₀]

def gather_S64x64x8_S32x2_S32x8_1_01_n_n_01_1_118 : GatherDims S64x64x8 S32x2 S32x8 where
  offsetDims := [1]
  collapsedSliceDims := [0, 1]
  operandBatchingDims := []
  startIndicesBatchingDims := []
  startIndexMap := [0, 1]
  indexVectorDim := 1
  sliceSizes := ![1, 1, 8]
  wf := gather_S64x64x8_S32x2_S32x8_1_01_n_n_01_1_118_wf
def gather_S64x64x32_S32x2_S32x32_1_01_n_n_01_1_1132 : GatherDims S64x64x32 S32x2 S32x32 where
  offsetDims := [1]
  collapsedSliceDims := [0, 1]
  operandBatchingDims := []
  startIndicesBatchingDims := []
  startIndexMap := [0, 1]
  indexVectorDim := 1
  sliceSizes := ![1, 1, 32]
  wf := gather_S64x64x32_S32x2_S32x32_1_01_n_n_01_1_1132_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S64x64x32_S32x32_S64x64x32_2_0_01_1_n_n : DotDims S64x64x32 S32x32 S64x64x32 where
  lhsContracting := [2]
  rhsContracting := [0]
  lhsNonContracting := [0, 1]
  rhsNonContracting := [1]
  lhsBatch := []
  rhsBatch := []
  wf := dot_S64x64x32_S32x32_S64x64x32_2_0_01_1_n_n_wf

class Facts : Prop extends Facts₀ where

variable [Facts]
-- ==== Proof.KernelBody.lean ====
/-
  What the kernel body leaves in its output block, read at one index (f, p) at the extended reals, in terms of
  the three input blocks as the body loads them: x0 is x with four feature rows per 128-lane row, x1 is W, x2 is
  R with sixteen grid points' eight channels per 128-lane row.
-/
import proofs.«137411_g48833778155979_cont_8to1_c_18_27_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KBody

open Cert.KernelIdeal Cert.KernelIdeal.Gen Idealize.ShloMosaic Idealize.ShloMosaic.ValueIdx

/-- Station k's flat grid position, 64 * (7k mod 64) + (13k mod 64). -/
def gid (k : Fin 32) : Fin 4096 := ⟨((7 * k.val) % 64) * 64 + (13 * k.val) % 64, by omega⟩
/-- The row of x0 that holds flat grid position q's feature row (four per row). -/
def xrow (q : Fin 4096) : Fin 1024 := ⟨q.val / 4, by omega⟩
/-- The lane of x0 that holds feature g of flat grid position q. -/
def xcol (q : Fin 4096) (g : Fin 32) : Fin 128 := ⟨(q.val % 4) * 32 + g.val, by omega⟩
/-- The row of x2 that holds flat grid position q's context row (sixteen per row). -/
def rrow (q : Fin 4096) : Fin 256 := ⟨q.val / 16, by omega⟩
/-- The lane of x2 that holds channel c of flat grid position q. -/
def rcol (q : Fin 4096) (c : Fin 8) : Fin 128 := ⟨8 * (q.val % 16) + c.val, by omega⟩

/-- The offsets of the whole-block rectangles are zero on both axes. -/
theorem hz : (![0, 0] : Fin 2 → Nat) = fun _ => 0 := funext fun a => by fin_cases a <;> rfl

/-- The gathered context columns as one value of x2. -/
def rst (x2 : Vec Ideal S256x128 .f32) : FVec Ideal S8x32 .f32 :=
  k0_pay1 (k0_pay3 x2) (k0_pay5 x2) (k0_pay6 x2) (k0_pay7 x2) (k0_pay8 x2) (k0_pay9 x2) (k0_pay10 x2) (k0_pay11 x2) (k0_pay12 x2) (k0_pay13 x2) (k0_pay14 x2) (k0_pay15 x2) (k0_pay16 x2) (k0_pay17 x2) (k0_pay18 x2) (k0_pay19 x2) (k0_pay20 x2)

/-- The one store covers the whole block from offset zero and each load reads its whole block, so the stored value
    is the arithmetic applied to the re-laid context, the gathered features, the gathered context and the weights. -/
theorem out0_3_eq (x0 : Vec Ideal S1024x128 .f32) (x1 : Vec Ideal S32x32 .f32) (x2 : Vec Ideal S256x128 .f32) :
    out0_3 (F := Ideal) x0 x1 x2 = k0_pay2 (k0_pay3 x2) (k0_pay4 x0) (rst x2) x1 := by
  unfold out0_3 rst
  rw [View.canon_unit_zero hz]
  simp only [View.ld_unit_zero (S := S1024x128) hz, View.ld_unit_zero (S := S256x128) hz, View.ld_unit_zero (S := S32x32) hz]

/-- A one-row, thirty-two-lane window of a 1024x128 value, at any row and lane offset that fits. -/
theorem slices_row (r c : Nat) (hr : r + 1 ≤ 1024) (hc : c + 32 ≤ 128) : S1024x128.Slices ![r, c] S1x32 :=
  ⟨rfl, fun a => by
    match a with
    | ⟨0, _⟩ => exact hr
    | ⟨1, _⟩ => exact hc⟩

/-- Station n's feature row as the body slices it out of x0. -/
def xpiece (x0 : Vec Ideal S1024x128 .f32) (n : Fin 32) : S1x32.Idx → Ideal .f32 :=
  extractStridedSlice S1x32 ![(xrow (gid n)).val, (gid n).val % 4 * 32]
    (shapeCast S1024x128 x0 shapeCasts_S1024x128_S1024x128)
    (slices_row _ _ (by have := (xrow (gid n)).isLt; omega) (by omega))

/-- The gathered features at (k, g): piece k of the concatenation along axis 0 is the one-row window of x0 at row
    gid k / 4 and lanes 32 (gid k mod 4) onward, read at lane offset g. -/
theorem pay4_apply (x0 : Vec Ideal S1024x128 .f32) (k g : Fin 32) :
    k0_pay4 x0 (ix2 k g) = x0 (ix2 (xrow (gid k)) (xcol (gid k) g)) := by
  unfold k0_pay4
  show concatenate S32x32 0 (List.ofFn fun n : Fin 32 => (⟨S1x32, xpiece x0 n⟩ : (s : Shape) × (s.Idx → Ideal .f32))) _ (ix2 k g) = _
  refine (concatenate_ofFn_unit_apply (t := S32x32) (s₁ := S1x32) (0 : Fin 2) (xpiece x0) _ rfl rfl (ix2 k g) k rfl (ix2 0 g) ?_).trans ?_
  · intro b hb
    match b with
    | ⟨0, _⟩ => exact absurd rfl hb
    | ⟨1, _⟩ => rfl
  unfold xpiece
  refine (extractStridedSlice_apply _ _ _ (ix2 0 g) (ix2 (xrow (gid k)) (xcol (gid k) g)) ?_).trans ?_
  · intro a
    match a with
    | ⟨0, _⟩ => show (xrow (gid k)).val = (xrow (gid k)).val + 0; rfl
    | ⟨1, _⟩ => show (gid k).val % 4 * 32 + g.val = (gid k).val % 4 * 32 + g.val; rfl
  · rw [shapeCast_self]

/-! ### The two products, read at an index -/

/-! For the rows-by-columns product the left index is (output row, contraction position) and the right index is
    (contraction position, output column); one fact per operand axis. -/

theorem lhs1_0 (i : S32x32.Idx) (q : dot_S32x32_S32x32_S32x32_1_0_0_1_n_n.contr.Idx) :
    (dot_S32x32_S32x32_S32x32_1_0_0_1_n_n.lhsIdx i q 0).val = (i 0).val := by
  unfold DotDims.lhsIdx
  rw [dif_neg (show ¬(0 : Fin S32x32.rank) ∈ dot_S32x32_S32x32_S32x32_1_0_0_1_n_n.lhsBatch by decide),
    dif_pos (show (0 : Fin S32x32.rank) ∈ dot_S32x32_S32x32_S32x32_1_0_0_1_n_n.lhsNonContracting by decide)]
  rfl
theorem lhs1_1 (i : S32x32.Idx) (q : dot_S32x32_S32x32_S32x32_1_0_0_1_n_n.contr.Idx) :
    (dot_S32x32_S32x32_S32x32_1_0_0_1_n_n.lhsIdx i q 1).val = (q ⟨0, by decide⟩).val :=
  dot_S32x32_S32x32_S32x32_1_0_0_1_n_n.lhsIdx_val_of_single rfl i q
theorem rhs1_0 (i : S32x32.Idx) (q : dot_S32x32_S32x32_S32x32_1_0_0_1_n_n.contr.Idx) :
    (dot_S32x32_S32x32_S32x32_1_0_0_1_n_n.rhsIdx i q 0).val = (q ⟨0, by decide⟩).val :=
  dot_S32x32_S32x32_S32x32_1_0_0_1_n_n.rhsIdx_val_of_single rfl i q
theorem rhs1_1 (i : S32x32.Idx) (q : dot_S32x32_S32x32_S32x32_1_0_0_1_n_n.contr.Idx) :
    (dot_S32x32_S32x32_S32x32_1_0_0_1_n_n.rhsIdx i q 1).val = (i 1).val := by
  unfold DotDims.rhsIdx
  rw [dif_neg (show ¬(1 : Fin S32x32.rank) ∈ dot_S32x32_S32x32_S32x32_1_0_0_1_n_n.rhsBatch by decide),
    dif_pos (show (1 : Fin S32x32.rank) ∈ dot_S32x32_S32x32_S32x32_1_0_0_1_n_n.rhsNonContracting by decide)]
  rfl

/-- The rows-by-columns product onto zero, at (k, f): the sum over g of A[k, g] * B[g, f]. -/
theorem matmul1_apply (A B : FVec Ideal S32x32 .f32) (k f : Fin 32) :
    matmul dot_S32x32_S32x32_S32x32_1_0_0_1_n_n none A B (constant (F := Ideal) S32x32 .f32 0x00000000#32) (ix2 k f)
      = ∑ g : Fin 32, A (ix2 k g) * B (ix2 g f) := by
  simp only [matmul]
  rw [Ideal.matmul_constant_zero_apply,
    ← Equiv.sum_comp (contrEquiv1 dot_S32x32_S32x32_S32x32_1_0_0_1_n_n 32 rfl rfl).symm]
  refine Finset.sum_congr rfl fun g _ => ?_
  have hg := contrEquiv1_symm_val dot_S32x32_S32x32_S32x32_1_0_0_1_n_n 32 rfl rfl g
  have el : dot_S32x32_S32x32_S32x32_1_0_0_1_n_n.lhsIdx (ix2 k f)
      ((contrEquiv1 dot_S32x32_S32x32_S32x32_1_0_0_1_n_n 32 rfl rfl).symm g) = ix2 k g := funext fun a => Fin.ext (by
    match a with
    | ⟨0, _⟩ => exact lhs1_0 _ _
    | ⟨1, _⟩ => exact (lhs1_1 _ _).trans hg)
  have er : dot_S32x32_S32x32_S32x32_1_0_0_1_n_n.rhsIdx (ix2 k f)
      ((contrEquiv1 dot_S32x32_S32x32_S32x32_1_0_0_1_n_n 32 rfl rfl).symm g) = ix2 g f := funext fun a => Fin.ext (by
    match a with
    | ⟨0, _⟩ => exact (rhs1_0 _ _).trans hg
    | ⟨1, _⟩ => exact rhs1_1 _ _)
  rw [el, er]

/-! For the product contracting the first axis of both operands the left index is (contraction position, output row)
    and the right index is (contraction position, output column); one fact per operand axis. -/

theorem lhs2_0 (i : S32x4096.Idx) (q : dot_S32x32_S32x4096_S32x4096_0_0_1_1_n_n.contr.Idx) :
    (dot_S32x32_S32x4096_S32x4096_0_0_1_1_n_n.lhsIdx i q 0).val = (q ⟨0, by decide⟩).val :=
  dot_S32x32_S32x4096_S32x4096_0_0_1_1_n_n.lhsIdx_val_of_single rfl i q
theorem lhs2_1 (i : S32x4096.Idx) (q : dot_S32x32_S32x4096_S32x4096_0_0_1_1_n_n.contr.Idx) :
    (dot_S32x32_S32x4096_S32x4096_0_0_1_1_n_n.lhsIdx i q 1).val = (i 0).val := by
  unfold DotDims.lhsIdx
  rw [dif_neg (show ¬(1 : Fin S32x32.rank) ∈ dot_S32x32_S32x4096_S32x4096_0_0_1_1_n_n.lhsBatch by decide),
    dif_pos (show (1 : Fin S32x32.rank) ∈ dot_S32x32_S32x4096_S32x4096_0_0_1_1_n_n.lhsNonContracting by decide)]
  rfl
theorem rhs2_0 (i : S32x4096.Idx) (q : dot_S32x32_S32x4096_S32x4096_0_0_1_1_n_n.contr.Idx) :
    (dot_S32x32_S32x4096_S32x4096_0_0_1_1_n_n.rhsIdx i q 0).val = (q ⟨0, by decide⟩).val :=
  dot_S32x32_S32x4096_S32x4096_0_0_1_1_n_n.rhsIdx_val_of_single rfl i q
theorem rhs2_1 (i : S32x4096.Idx) (q : dot_S32x32_S32x4096_S32x4096_0_0_1_1_n_n.contr.Idx) :
    (dot_S32x32_S32x4096_S32x4096_0_0_1_1_n_n.rhsIdx i q 1).val = (i 1).val := by
  unfold DotDims.rhsIdx
  rw [dif_neg (show ¬(1 : Fin S32x4096.rank) ∈ dot_S32x32_S32x4096_S32x4096_0_0_1_1_n_n.rhsBatch by decide),
    dif_pos (show (1 : Fin S32x4096.rank) ∈ dot_S32x32_S32x4096_S32x4096_0_0_1_1_n_n.rhsNonContracting by decide)]
  rfl

/-- The product contracting the FIRST axis of both operands, onto zero, at (f, p): the sum over k of A[k, f] * B[k, p]. -/
theorem matmul2_apply (A : FVec Ideal S32x32 .f32) (B : FVec Ideal S32x4096 .f32) (f : Fin 32) (p : Fin 4096) :
    matmul dot_S32x32_S32x4096_S32x4096_0_0_1_1_n_n none A B (constant (F := Ideal) S32x4096 .f32 0x00000000#32) (ix2 f p)
      = ∑ k : Fin 32, A (ix2 k f) * B (ix2 k p) := by
  simp only [matmul]
  rw [Ideal.matmul_constant_zero_apply,
    ← Equiv.sum_comp (contrEquiv1 dot_S32x32_S32x4096_S32x4096_0_0_1_1_n_n 32 rfl rfl).symm]
  refine Finset.sum_congr rfl fun k _ => ?_
  have hk := contrEquiv1_symm_val dot_S32x32_S32x4096_S32x4096_0_0_1_1_n_n 32 rfl rfl k
  have el : dot_S32x32_S32x4096_S32x4096_0_0_1_1_n_n.lhsIdx (ix2 f p)
      ((contrEquiv1 dot_S32x32_S32x4096_S32x4096_0_0_1_1_n_n 32 rfl rfl).symm k) = ix2 k f := funext fun a => Fin.ext (by
    match a with
    | ⟨0, _⟩ => exact (lhs2_0 _ _).trans hk
    | ⟨1, _⟩ => exact lhs2_1 _ _)
  have er : dot_S32x32_S32x4096_S32x4096_0_0_1_1_n_n.rhsIdx (ix2 f p)
      ((contrEquiv1 dot_S32x32_S32x4096_S32x4096_0_0_1_1_n_n 32 rfl rfl).symm k) = ix2 k p := funext fun a => Fin.ext (by
    match a with
    | ⟨0, _⟩ => exact (rhs2_0 _ _).trans hk
    | ⟨1, _⟩ => exact rhs2_1 _ _)
  rw [el, er]

/-! ### The sum over the channel axis, and the two broadcasts -/

/-- The sum over axis 0 of an 8x32x4096 value, at (k, p). -/
theorem red_apply (T : FVec Ideal S8x32x4096 .f32) (k : Fin 32) (p : Fin 4096) :
    multiReduction .add [0] S32x4096 T 0x00000000#32 reduces_S8x32x4096_S32x4096 (.inl rfl) rfl (ix2 k p)
      = ∑ c : Fin 8, T (ix3 c k p) := by
  refine (Ideal.multiReduction_add_single T 0x00000000#32 reduces_S8x32x4096_S32x4096 (.inl rfl) rfl (ix2 k p)).trans ?_
  refine Finset.sum_congr rfl fun c _ => congrArg T (funext fun a => Fin.ext ?_)
  match a with
  | ⟨0, _⟩ => rfl
  | ⟨1, _⟩ => rfl
  | ⟨2, _⟩ => rfl

/-- An 8x32 value as a column block 8x32x1 spread along the last axis: at (c, k, p) it is the value at (c, k). -/
theorem bcol_apply (X : FVec Ideal S8x32 .f32) (c : Fin 8) (k : Fin 32) (p : Fin 4096) :
    broadcastTo S8x32x4096 (shapeCast S8x32x1 X shapeCasts_S8x32_S8x32x1) broadcasts_S8x32x1_S8x32x4096 (ix3 c k p)
      = X (ix2 c k) := by
  refine (broadcastTo_apply _ _ (ix3 c k p) (ix3 c k (0 : Fin 1)) fun a => ?_).trans ?_
  · match a with
    | ⟨0, _⟩ => rfl
    | ⟨1, _⟩ => rfl
    | ⟨2, _⟩ => rfl
  · refine shapeCast_apply _ _ (ix3 c k (0 : Fin 1)) (ix2 c k) ?_
    rw [Shape.rowMajor_val_two, Shape.rowMajor_val_three]
    show c.val * 32 + k.val = (c.val * 32 + k.val) * 1 + 0
    omega

/-- An 8x4096 value as a row block 8x1x4096 spread along the middle axis: at (c, k, p) it is the value at (c, p). -/
theorem brow_apply (Y : FVec Ideal S8x4096 .f32) (c : Fin 8) (k : Fin 32) (p : Fin 4096) :
    broadcastTo S8x32x4096 (shapeCast S8x1x4096 Y shapeCasts_S8x4096_S8x1x4096) broadcasts_S8x1x4096_S8x32x4096 (ix3 c k p)
      = Y (ix2 c p) := by
  refine (broadcastTo_apply _ _ (ix3 c k p) (ix3 c (0 : Fin 1) p) fun a => ?_).trans ?_
  · match a with
    | ⟨0, _⟩ => rfl
    | ⟨1, _⟩ => rfl
    | ⟨2, _⟩ => rfl
  · refine shapeCast_apply _ _ (ix3 c (0 : Fin 1) p) (ix2 c p) ?_
    rw [Shape.rowMajor_val_two, Shape.rowMajor_val_three]
    show c.val * 4096 + p.val = (c.val * 1 + 0) * 4096 + p.val
    omega

/-- The arithmetic of the body at (f, p), over any re-laid context RT, gathered features G, gathered context R and
    weights W. -/
theorem pay2_apply (RT : FVec Ideal S8x4096 .f32) (G : FVec Ideal S32x32 .f32) (R : FVec Ideal S8x32 .f32)
    (W : Vec Ideal S32x32 .f32) (f : Fin 32) (p : Fin 4096) :
    k0_pay2 RT G R W (ix2 f p)
      = ∑ k : Fin 32, (∑ g : Fin 32, G (ix2 k g) * W (ix2 g f))
          * (∑ c : Fin 8, min (Ideal.exp (0 - R (ix2 c k)) * Ideal.exp (RT (ix2 c p)))
                              (Ideal.exp (R (ix2 c k)) * Ideal.exp (0 - RT (ix2 c p)))) := by
  unfold k0_pay2
  refine (matmul2_apply _ _ f p).trans ?_
  refine Finset.sum_congr rfl fun k _ => ?_
  rw [matmul1_apply, red_apply]
  refine congrArg _ (Finset.sum_congr rfl fun c _ => ?_)
  rw [minimumf_apply, mulf_apply, mulf_apply, bcol_apply, brow_apply, bcol_apply, brow_apply]
  show min (Ideal.exp (Ideal.ofBits .f32 0x00000000#32 - R (ix2 c k)) * Ideal.exp (RT (ix2 c p)))
      (Ideal.exp (R (ix2 c k)) * Ideal.exp (Ideal.ofBits .f32 0x00000000#32 - RT (ix2 c p))) = _
  rw [Ideal.ofBits_zero_f32]

/-! ### The re-laid context and the gathered context columns -/

/-- The re-laid context at (c, q): channel c of flat grid position q, which x2 holds at row q / 16, lane 8 (q mod 16) + c. -/
theorem pay3_apply (x2 : Vec Ideal S256x128 .f32) (c : Fin 8) (q : Fin 4096) :
    k0_pay3 x2 (ix2 c q) = x2 (ix2 (rrow q) (rcol q c)) := by
  unfold k0_pay3
  have hr : q.val / 16 < 256 := by omega
  have ht : q.val % 16 < 16 := by omega
  refine (shapeCast_apply _ _ (ix2 c q) (ix3 c (⟨q.val / 16, hr⟩ : Fin 256) (⟨q.val % 16, ht⟩ : Fin 16)) ?_).trans ?_
  · rw [Shape.rowMajor_val_three, Shape.rowMajor_val_two]
    show (c.val * 256 + q.val / 16) * 16 + q.val % 16 = c.val * 4096 + q.val
    omega
  refine (transpose_apply _ _ _ _ (ix3 (⟨q.val / 16, hr⟩ : Fin 256) (⟨q.val % 16, ht⟩ : Fin 16) c) fun b => ?_).trans ?_
  · match b with
    | ⟨0, _⟩ => rfl
    | ⟨1, _⟩ => rfl
    | ⟨2, _⟩ => rfl
  refine (shapeCast_apply _ _ _ (ix2 (rrow q) (rcol q c)) ?_).trans ?_
  · rw [Shape.rowMajor_val_three, Shape.rowMajor_val_two]
    show q.val / 16 * 128 + (8 * (q.val % 16) + c.val) = (q.val / 16 * 16 + q.val % 16) * 8 + c.val
    omega
  rw [shapeCast_self]

/-- A one-column window of an 8x4096 value at any column. -/
theorem slices_col (q : Nat) (hq : q + 1 ≤ 4096) : S8x4096.Slices ![0, q] S8x1 :=
  ⟨rfl, fun a => by
    match a with
    | ⟨0, _⟩ => exact (by decide : 0 + 8 ≤ 8)
    | ⟨1, _⟩ => exact hq⟩

/-- Station n's context column as the body slices it out of the re-laid context. -/
def rpiece (RT : FVec Ideal S8x4096 .f32) (n : Fin 32) : S8x1.Idx → Ideal .f32 :=
  extractStridedSlice S8x1 ![0, (gid n).val] RT (slices_col _ (by have := (gid n).isLt; omega))

/-- The gathered context at (c, k): the re-laid context at channel c, flat position gid k. -/
theorem rst_apply (x2 : Vec Ideal S256x128 .f32) (c : Fin 8) (k : Fin 32) :
    rst x2 (ix2 c k) = k0_pay3 x2 (ix2 c (gid k)) := by
  unfold rst k0_pay1 k0_pay5 k0_pay6 k0_pay7 k0_pay8 k0_pay9 k0_pay10 k0_pay11 k0_pay12 k0_pay13 k0_pay14 k0_pay15 k0_pay16
    k0_pay17 k0_pay18 k0_pay19 k0_pay20
  show concatenate S8x32 1 (List.ofFn fun n : Fin 32 => (⟨S8x1, rpiece (k0_pay3 x2) n⟩ : (s : Shape) × (s.Idx → Ideal .f32)))
    _ (ix2 c k) = _
  refine (concatenate_ofFn_unit_apply (t := S8x32) (s₁ := S8x1) (1 : Fin 2) (rpiece (k0_pay3 x2)) _ rfl rfl (ix2 c k) k rfl
    (ix2 c 0) ?_).trans ?_
  · intro b hb
    match b with
    | ⟨0, _⟩ => rfl
    | ⟨1, _⟩ => exact absurd rfl hb
  unfold rpiece
  refine extractStridedSlice_apply _ _ _ (ix2 c 0) (ix2 c (gid k)) fun a => ?_
  match a with
  | ⟨0, _⟩ => show c.val = 0 + c.val; omega
  | ⟨1, _⟩ => show (gid k).val = (gid k).val + 0; rfl

/-- The output block at (f, p): the sum over the stations of the station's projected feature f times the
    similarity of flat grid point p to the station in the kernel's spelling. -/
theorem out0_3_apply (x0 : Vec Ideal S1024x128 .f32) (x1 : Vec Ideal S32x32 .f32) (x2 : Vec Ideal S256x128 .f32)
    (f : Fin 32) (p : Fin 4096) :
    out0_3 (F := Ideal) x0 x1 x2 (ix2 f p)
      = ∑ k : Fin 32, (∑ g : Fin 32, x0 (ix2 (xrow (gid k)) (xcol (gid k) g)) * x1 (ix2 g f))
          * (∑ c : Fin 8, min
              (Ideal.exp (0 - x2 (ix2 (rrow (gid k)) (rcol (gid k) c))) * Ideal.exp (x2 (ix2 (rrow p) (rcol p c))))
              (Ideal.exp (x2 (ix2 (rrow (gid k)) (rcol (gid k) c))) * Ideal.exp (0 - x2 (ix2 (rrow p) (rcol p c))))) := by
  rw [out0_3_eq, pay2_apply]
  simp only [pay4_apply, rst_apply, pay3_apply]

end Cert.KernelIdeal.KBody

end
-- ==== Proof.Spec.lean ====
/-
  The mathematics of the two programs, as functions of the three argument arrays over the extended reals.

  There are 32 stations; station k sits at grid row (7k mod 64) and grid column (13k mod 64) of the 64 x 64 grid.
  `proj x W k f` is the k-th station's feature row of x multiplied into W: sum over g of x[row k, col k, g] * W[g, f].
  The similarity of grid point (i, j) to station k sums, over the 8 context channels c, e to the minus
  |R[row k, col k, c] - R[i, j, c]|; the reference writes it with the absolute value (`simRef`), the kernel as the
  smaller of e^(-a) e^b and e^a e^(-b) (`simKer`), a = R[row k, col k, c], b = R[i, j, c].
  The result at (i, j, f) is the sum over the stations of similarity times projection.
-/
import Idealize.ShloMosaic.PureOps.Ideal
import Idealize.ShloMosaic.Lib.ValueIdx

noncomputable section

namespace Cert.Spec

open Idealize.ShloMosaic Idealize.ShloMosaic.ValueIdx

/-- Station k's grid row. -/
def stRow (k : Fin 32) : Fin 64 := ⟨(7 * k.val) % 64, Nat.mod_lt _ (by decide)⟩
/-- Station k's grid column. -/
def stCol (k : Fin 32) : Fin 64 := ⟨(13 * k.val) % 64, Nat.mod_lt _ (by decide)⟩

abbrev XArr : Type := (⟨3, ![64, 64, 32]⟩ : Shape).Idx → EReal
abbrev WArr : Type := (⟨2, ![32, 32]⟩ : Shape).Idx → EReal
abbrev RArr : Type := (⟨3, ![64, 64, 8]⟩ : Shape).Idx → EReal

/-- Station k's feature row times W, at output feature f. -/
def proj (x : XArr) (W : WArr) (k f : Fin 32) : EReal :=
  ∑ g : Fin 32, x (ix3 (stRow k) (stCol k) g) * W (ix2 g f)

/-- The similarity of grid point (i, j) to station k, with the absolute value (the reference's spelling). -/
def simRef (R : RArr) (i j : Fin 64) (k : Fin 32) : EReal :=
  ∑ c : Fin 8, Ideal.exp (-(max (R (ix3 (stRow k) (stCol k) c) - R (ix3 i j c))
    (-(R (ix3 (stRow k) (stCol k) c) - R (ix3 i j c)))))

/-- The same similarity as the smaller of two products of exponentials (the kernel's spelling). -/
def simKer (R : RArr) (i j : Fin 64) (k : Fin 32) : EReal :=
  ∑ c : Fin 8, min (Ideal.exp (0 - R (ix3 (stRow k) (stCol k) c)) * Ideal.exp (R (ix3 i j c)))
    (Ideal.exp (R (ix3 (stRow k) (stCol k) c)) * Ideal.exp (0 - R (ix3 i j c)))

/-- The reference's result at (i, j, f). -/
def outRef (x : XArr) (W : WArr) (R : RArr) (i j : Fin 64) (f : Fin 32) : EReal :=
  ∑ k : Fin 32, simRef R i j k * proj x W k f

/-- The kernel's result at (i, j, f). -/
def outKer (x : XArr) (W : WArr) (R : RArr) (i j : Fin 64) (f : Fin 32) : EReal :=
  ∑ k : Fin 32, proj x W k f * simKer R i j k

end Cert.Spec

end
-- ==== Proof.KernelRun.lean ====
/-
  The kernel program's run, read: the region has one grid point and every window is its whole array, so each
  input block is the array itself and the output array after the run is the body's stored value of the three
  arrays the region finds: x and R re-laid by the host reshapes before the region, W as launched. The host
  operations after the region transpose that 32 x 4096 array and reshape it to 64 x 64 x 32.
-/
import proofs.«137411_g48833778155979_cont_8to1_c_18_27_alg».proof.Proof.Gen.KernelIdeal.Frame
import proofs.«137411_g48833778155979_cont_8to1_c_18_27_alg».proof.Proof.KernelBody
import proofs.«137411_g48833778155979_cont_8to1_c_18_27_alg».proof.Proof.Spec
import Idealize.ShloMosaic.Lib.Pipeline.Value
import Idealize.ShloMosaic.Lib.StableHlo.Run
import Idealize.ShloMosaic.Lib.ValueIdx

noncomputable section

namespace Cert.KernelIdeal.KRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Every window's block index is zero on both axes at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Input window 0's block is its whole array. -/
theorem iblk0_eq (c : Dev nD) (t : Fin cfg0.N) : iblk m c 0 t = V m c main_v0 := by
  obtain ⟨e0, e1, -⟩ := idx_facts t
  funext j
  show V m c main_v0 (((cfg0.win 0).blk t).view.emb j) = V m c main_v0 j
  refine congrArg _ ?_
  funext a; apply Fin.ext
  match a with
  | ⟨0, _⟩ => show win0_0.index t (0 : Fin 2) * 1024 + 1 * (j 0).val = (j 0).val; omega
  | ⟨1, _⟩ => show win0_0.index t (1 : Fin 2) * 128 + 1 * (j 1).val = (j 1).val; omega

/-- Input window 1's block is its whole array. -/
theorem iblk1_eq (c : Dev nD) (t : Fin cfg0.N) : iblk m c 1 t = V m c main_arg1 := by
  obtain ⟨-, -, e0, e1, -⟩ := idx_facts t
  funext j
  show V m c main_arg1 (((cfg0.win 1).blk t).view.emb j) = V m c main_arg1 j
  refine congrArg _ ?_
  funext a; apply Fin.ext
  match a with
  | ⟨0, _⟩ => show win0_1.index t (0 : Fin 2) * 32 + 1 * (j 0).val = (j 0).val; omega
  | ⟨1, _⟩ => show win0_1.index t (1 : Fin 2) * 32 + 1 * (j 1).val = (j 1).val; omega

/-- Input window 2's block is its whole array. -/
theorem iblk2_eq (c : Dev nD) (t : Fin cfg0.N) : iblk m c 2 t = V m c main_v1 := by
  obtain ⟨-, -, -, -, e0, e1, -⟩ := idx_facts t
  funext j
  show V m c main_v1 (((cfg0.win 2).blk t).view.emb j) = V m c main_v1 j
  refine congrArg _ ?_
  funext a; apply Fin.ext
  match a with
  | ⟨0, _⟩ => show win0_2.index t (0 : Fin 2) * 256 + 1 * (j 0).val = (j 0).val; omega
  | ⟨1, _⟩ => show win0_2.index t (1 : Fin 2) * 128 + 1 * (j 1).val = (j 1).val; omega

/-- The body's stored value of the three arrays as the region finds them. -/
@[irreducible] def stored (c : Dev nD) : Vec Ideal S32x4096 .f32 :=
  out0_3 (F := Ideal) (V m c main_v0) (V m c main_arg1) (V m c main_v1)

theorem stored_def (c : Dev nD) :
    stored m c = out0_3 (F := Ideal) (V m c main_v0) (V m c main_arg1) (V m c main_v1) := by
  unfold stored; rfl

/-- After the body the output window's buffer holds the stored value. -/
theorem after3_eq (c : Dev nD) (t : Fin cfg0.N) : (dats m 0 c).after 3 t = stored m c := by
  rw [after0_3, stored_def, iblk0_eq m c t, iblk1_eq m c t, iblk2_eq m c t]

/-- The output window's block is its whole array: cutting to the block and reading through it are the identity. -/
theorem cut_whole3 (t : Fin cfg0.N) (g : Vec Ideal S32x4096 .f32) :
    (cfg0.win 3).cut (grid0.coords t) g = ((cfg0.win 3).blk t).view.read (Elt Ideal) g := by
  obtain ⟨-, -, -, -, -, -, e0, e1⟩ := idx_facts t
  funext j
  show g j = g (((cfg0.win 3).blk t).view.emb j)
  refine congrArg g ?_
  funext a; apply Fin.ext
  match a with
  | ⟨0, _⟩ => show (j 0).val = win0_3.index t (0 : Fin 2) * 32 + 1 * (j 0).val; omega
  | ⟨1, _⟩ => show (j 1).val = win0_3.index t (1 : Fin 2) * 4096 + 1 * (j 1).val; omega

/-- What the one grid point writes back is the stored value, read through the output window's whole block. -/
theorem flushed3_eq (c : Dev nD) (t : Fin cfg0.N) :
    (dats m 0 c).flushed 3 t = ((cfg0.win 3).blk t).view.read (Elt Ideal) (stored m c) := by
  show (cfg0.win 3).cut (grid0.coords t) ((dats m 0 c).after 3 t) = _
  rw [after3_eq m c t]
  exact cut_whole3 t (stored m c)

/-- An index of the output array is in the point's block iff each coordinate is in the block's range. -/
theorem mem_blk3 (t : Fin cfg0.N) (i : S32x4096.Idx) :
    i ∈ ((cfg0.win 3).blk t).view.set ↔ ∀ a : Fin 2, win0_3.index t a * S32x4096.size a ≤ (i a).val
      ∧ (i a).val < win0_3.index t a * S32x4096.size a + S32x4096.size a := by
  show i ∈ ((View.whole main_v2).slice (win0_3.rect t)).set ↔ _
  rw [View.set_slice_whole, Rect.mem_set_unit]
  exact Iff.rfl

/-- The one block covers the output array. -/
theorem cover3 (i : S32x4096.Idx) : ∃ t : Fin cfg0.N, (cfg0.win 3).flush t = true ∧ i ∈ ((cfg0.win 3).blk t).view.set := by
  obtain ⟨-, -, -, -, -, -, e0, e1⟩ := idx_facts t0_0
  have h0 : (i 0).val < 32 := (i 0).isLt
  have h1 : (i 1).val < 4096 := (i 1).isLt
  refine ⟨t0_0, flush0_3 t0_0, (mem_blk3 t0_0 i).2 ?_⟩
  intro a
  match a with
  | ⟨0, _⟩ => show win0_3.index t0_0 (0 : Fin 2) * 32 ≤ (i 0).val ∧ (i 0).val < win0_3.index t0_0 (0 : Fin 2) * 32 + 32; omega
  | ⟨1, _⟩ => show win0_3.index t0_0 (1 : Fin 2) * 4096 ≤ (i 1).val ∧ (i 1).val < win0_3.index t0_0 (1 : Fin 2) * 4096 + 4096; omega

/-- The output array after the run is the stored value. -/
theorem final3 (c : Dev nD) : (dats m 0 c).arrAt 3 cfg0.N = stored m c :=
  (dats m 0 c).arrAt_eq_of_cover 3 _ (fun t _ => flushed3_eq m c t) cover3

/-- The region finds x re-laid by the host reshape: four feature rows per 128-lane row. -/
theorem V_v0 (c : Dev nD) :
    V m c main_v0 = shapeCast S1024x128 (m ((c : Thread nD τ).loc main_arg0)) shapeCasts_S64x64x32_S1024x128 := by
  show StableHlo.after hostOps0 (fun b => m (c, b)) (Proc.devRef .tc main_v0) = _
  after_results
  rfl

/-- The region finds R re-laid by the host reshape: sixteen grid points' channels per 128-lane row. -/
theorem V_v1 (c : Dev nD) :
    V m c main_v1 = shapeCast S256x128 (m ((c : Thread nD τ).loc main_arg2)) shapeCasts_S64x64x8_S256x128 := by
  show StableHlo.after hostOps0 (fun b => m (c, b)) (Proc.devRef .tc main_v1) = _
  after_results
  rfl

/-- The result buffer after the host operations that follow the region: the output array transposed and reshaped. -/
theorem tail_v4 (c : Dev nD) :
    Pipeline.afterTail₀ cfgs (dats m) 0 (V0 m) [hostOps1] c main_v4
      = shapeCast S64x64x32 (transpose S4096x32 [1, 0] (stored m c) transposes_S32x4096_S4096x32_1_0)
          shapeCasts_S4096x32_S64x64x32 := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v2) = stored m c :=
    (Pipeline.withArrays_arr spec0 launch0.win.arr_inj c _ _ 3).trans (final3 m c)
  rw [hw]
  rfl

/-- The kernel program's result as a function of the three argument arrays. -/
def kerOut (x : FVec Ideal S64x64x32 .f32) (W : FVec Ideal S32x32 .f32) (R : FVec Ideal S64x64x8 .f32) :
    FVec Ideal S64x64x32 .f32 :=
  shapeCast S64x64x32
    (transpose S4096x32 [1, 0]
      (out0_3 (F := Ideal) (shapeCast S1024x128 x shapeCasts_S64x64x32_S1024x128) W
        (shapeCast S256x128 R shapeCasts_S64x64x8_S256x128))
      transposes_S32x4096_S4096x32_1_0)
    shapeCasts_S4096x32_S64x64x32

/-- The stored value in terms of the argument arrays as launched. -/
theorem stored_args (c : Dev nD) :
    stored m c = out0_3 (F := Ideal)
      (shapeCast S1024x128 (m ((c : Thread nD τ).loc main_arg0)) shapeCasts_S64x64x32_S1024x128)
      (m ((c : Thread nD τ).loc main_arg1))
      (shapeCast S256x128 (m ((c : Thread nD τ).loc main_arg2)) shapeCasts_S64x64x8_S256x128) := by
  rw [stored_def, V_v0, V_main_arg1, V_v1]

/-- Every weakly fair execution of the kernel program terminates with the result buffer at `kerOut` of the
    arguments and the arguments unchanged. -/
theorem run : θ_run defs (onTc (τ := τ) (main (F := Ideal))) ⟨m, fun _ => 0, ρ⟩ fun r => ∀ c : Dev nD,
      r.2.mem ((c.tc : Thread nD τ).loc main_v4)
        = kerOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_v4 m c).trans (by rw [stored_args]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-! ## The result read at an index -/

open Cert.KernelIdeal.KBody Cert.Spec

/-- Grid point (i, j) as a flat position. -/
def flat (i j : Fin 64) : Fin 4096 := ⟨i.val * 64 + j.val, by omega⟩

/-- The final reshape: entry (i, j, f) of the result is entry (64 i + j, f) of the transposed array. -/
theorem cast_out (T : FVec Ideal S4096x32 .f32) (i j : Fin 64) (f : Fin 32) :
    shapeCast S64x64x32 T shapeCasts_S4096x32_S64x64x32 (ix3 i j f) = T (ix2 (flat i j) f) := by
  refine shapeCast_apply _ _ _ _ ?_
  rw [Shape.rowMajor_val_two, Shape.rowMajor_val_three]
  show (i.val * 64 + j.val) * 32 + f.val = (i.val * 64 + j.val) * 32 + f.val
  rfl

/-- The transpose: entry (p, f) is entry (f, p) of the stored array. -/
theorem transp_out (Y : FVec Ideal S32x4096 .f32) (p : Fin 4096) (f : Fin 32) :
    transpose S4096x32 [1, 0] Y transposes_S32x4096_S4096x32_1_0 (ix2 p f) = Y (ix2 f p) := by
  refine transpose_apply _ _ _ _ _ ?_
  intro b
  fin_cases b <;> rfl

/-- x re-laid: station k's feature g sits in row gid/4, lane 32 (gid mod 4) + g. -/
theorem xcast (x : FVec Ideal S64x64x32 .f32) (k g : Fin 32) :
    shapeCast S1024x128 x shapeCasts_S64x64x32_S1024x128 (ix2 (xrow (gid k)) (xcol (gid k) g))
      = x (ix3 (stRow k) (stCol k) g) := by
  refine shapeCast_apply _ _ _ _ ?_
  rw [Shape.rowMajor_val_two, Shape.rowMajor_val_three]
  show ((7 * k.val % 64) * 64 + 13 * k.val % 64) * 32 + g.val
    = ((7 * k.val % 64 * 64 + 13 * k.val % 64) / 4) * 128 + ((7 * k.val % 64 * 64 + 13 * k.val % 64) % 4 * 32 + g.val)
  omega

/-- R re-laid: channel c of flat position q sits in row q/16, lane 8 (q mod 16) + c. -/
theorem rcast (R : FVec Ideal S64x64x8 .f32) (a b : Fin 64) (c : Fin 8) (q : Fin 4096) (hq : q.val = a.val * 64 + b.val) :
    shapeCast S256x128 R shapeCasts_S64x64x8_S256x128 (ix2 (rrow q) (rcol q c)) = R (ix3 a b c) := by
  refine shapeCast_apply _ _ _ _ ?_
  rw [Shape.rowMajor_val_two, Shape.rowMajor_val_three]
  show (a.val * 64 + b.val) * 8 + c.val = (q.val / 16) * 128 + (8 * (q.val % 16) + c.val)
  omega

/-- The kernel program's result at (i, j, f) is the kernel's spelling of the specification. -/
theorem kerOut_apply (x : FVec Ideal S64x64x32 .f32) (W : FVec Ideal S32x32 .f32) (R : FVec Ideal S64x64x8 .f32)
    (i j : Fin 64) (f : Fin 32) : kerOut x W R (ix3 i j f) = outKer x W R i j f := by
  unfold kerOut
  rw [cast_out, transp_out, out0_3_apply]
  unfold outKer proj simKer
  refine Finset.sum_congr rfl fun k _ => ?_
  congr 1
  · refine Finset.sum_congr rfl fun g _ => ?_
    rw [xcast]
  · refine Finset.sum_congr rfl fun c _ => ?_
    rw [rcast R (stRow k) (stCol k) c (gid k) rfl, rcast R i j c (flat i j) rfl]

end Cert.KernelIdeal.KRun

end
-- ==== Proof.RefFloat.lean ====
/-
  The reference's floating-point chain as one function of its two start-index arrays and the three argument
  arrays: gather the stations' context rows of R and feature rows of x at the start indices, subtract every
  grid point's context row from every station's, take e to the minus absolute value, sum over the channels,
  and contract with the stations' feature rows times W.
-/
import proofs.«137411_g48833778155979_cont_8to1_c_18_27_alg».proof.ReferenceIdeal

noncomputable section

namespace Cert.ReferenceIdeal.RefFloat

open Idealize.ShloMosaic Cert.ReferenceIdeal Cert.ReferenceIdeal.Facts₀

variable {F : FTy → Type} [FloatOps F] [Facts]

/-- The station table as the program's constant holds it: row k is (grid row, grid column) of station k. -/
def stTable : IVec S32x2 32 := fun i => lit0 (S32x2.rowMajor i)

/-- The stations' context rows: R gathered at the start indices. -/
def stationCtx (idxA : IVec S32x2 32) (R : FVec F S64x64x8 .f32) : FVec F S32x8 .f32 :=
  Host.gather gather_S64x64x8_S32x2_S32x8_1_01_n_n_01_1_118 R idxA

/-- Every grid point's similarity to every station. -/
def simArr (idxA : IVec S32x2 32) (R : FVec F S64x64x8 .f32) : FVec F S64x64x32 .f32 :=
  Host.reduceAdd
    (Host.exp (Host.negf (Host.absf (subf
      (broadcastInDim S64x64x32x8 ![0, 1, 2, 3] bcast_S1x1x32x8_S64x64x32x8_0_1_2_3
        (broadcastInDim S1x1x32x8 ![2, 3] bcast_S32x8_S1x1x32x8_2_3 (stationCtx idxA R)))
      (broadcastInDim S64x64x32x8 ![0, 1, 2, 3] bcast_S64x64x1x8_S64x64x32x8_0_1_2_3
        (broadcastInDim S64x64x1x8 ![0, 1, 3] bcast_S64x64x8_S64x64x1x8_0_1_3 R))))))
    (constant S_ .f32 0x00000000#32) reducesTo_S64x64x32x8_S64x64x32_d3 h_S_

/-- The stations' feature rows times W. -/
def projArr (idxB : IVec S32x2 32) (x : FVec F S64x64x32 .f32) (W : FVec F S32x32 .f32) : FVec F S32x32 .f32 :=
  Host.dotGeneral dot_S32x32_S32x32_S32x32_1_0_0_1_n_n none
    (Host.gather gather_S64x64x32_S32x2_S32x32_1_01_n_n_01_1_1132 x idxB) W

/-- The reference's result array. -/
def refFloat (idxA idxB : IVec S32x2 32) (x : FVec F S64x64x32 .f32) (W : FVec F S32x32 .f32)
    (R : FVec F S64x64x8 .f32) : FVec F S64x64x32 .f32 :=
  Host.dotGeneral dot_S64x64x32_S32x32_S64x64x32_2_0_01_1_n_n none (simArr idxA R) (projArr idxB x W)

end Cert.ReferenceIdeal.RefFloat

end
-- ==== Proof.RefRun.lean ====
/-
  The reference program's run: its @main is a straight line of host operations (the two outlined integer
  helpers, floor division and remainder, unfolded at their calls); every execution ends with the result
  buffer at the float chain of the argument arrays, gathered at the station table, and the arguments unchanged.
-/
import proofs.«137411_g48833778155979_cont_8to1_c_18_27_alg».proof.Proof.Gen.ReferenceIdeal
import proofs.«137411_g48833778155979_cont_8to1_c_18_27_alg».proof.Proof.RefFloat
import Idealize.ShloMosaic.Lib.StableHlo.Run
import Idealize.ShloMosaic.Lib.ValueIdx

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

-- the contents of an integer, a predicate and a float tensor value of a given shape
set_option quotPrecheck false in
local notation "I32[" S "]" => (⟨S, .i32⟩ : BufTy).Contents (Elt F)
set_option quotPrecheck false in
local notation "I1[" S "]" => (⟨S, .i1⟩ : BufTy).Contents (Elt F)
set_option quotPrecheck false in
local notation "F32[" S "]" => (⟨S, .f32⟩ : BufTy).Contents (Elt F)

/-- @main's ninety-seven operations in order, the two calls unfolded: thirty-eight of its own up to the flat grid
    index `64 * row + col`; floor division's seventeen over the first call's buffers (the divisor converted and
    broadcast, the truncating quotient, the two signs and their comparison, the truncating remainder and its
    comparison with zero, the quotient less one, and the inner select choosing between them); the divisor of the
    remainder; remainder's twenty-one over the second call's buffers (the divisor converted, replaced by one if zero
    through the inner select, broadcast, the truncating remainder, its comparisons, the sign correction and the
    select); then @main's last twenty: both results wrapped, made columns, concatenated, the second gather and the
    two contractions. -/
abbrev ops : List (HloOp τ sig (Elt F)) :=
  [ nullary main_c (fun i => lit0 (S32x2.rowMajor i)),
    unary main_c main_v0 ((extractStridedSlice S32x1 ![0, 0] · slices_S32x2_S32x1_0_0) : I32[S32x2] → I32[S32x1]),
    reshape main_v0 main_v1 rfl shapeCasts_S32x1_S32,
    unary main_c main_v2 ((extractStridedSlice S32x1 ![0, 1] · slices_S32x2_S32x1_0_1) : I32[S32x2] → I32[S32x1]),
    reshape main_v2 main_v3 rfl shapeCasts_S32x1_S32,
    nullary main_c_0 (constantI S_ 32 0#32),
    unary main_c_0 main_v4 (broadcastInDim S32 ![] bcast_S_S32 : I32[S_] → I32[S32]),
    binary main_v1 main_v4 main_v5 (cmpi .slt : I32[S32] → I32[S32] → I1[S32]),
    nullary main_c_1 (constantI S_ 32 64#32),
    unary main_c_1 main_v6 (broadcastInDim S32 ![] bcast_S_S32 : I32[S_] → I32[S32]),
    binary main_v1 main_v6 main_v7 (addi : I32[S32] → I32[S32] → I32[S32]),
    ternary main_v5 main_v7 main_v1 main_v8 (select : I1[S32] → I32[S32] → I32[S32] → I32[S32]),
    nullary main_c_2 (constantI S_ 32 0#32),
    unary main_c_2 main_v9 (broadcastInDim S32 ![] bcast_S_S32 : I32[S_] → I32[S32]),
    binary main_v3 main_v9 main_v10 (cmpi .slt : I32[S32] → I32[S32] → I1[S32]),
    nullary main_c_3 (constantI S_ 32 64#32),
    unary main_c_3 main_v11 (broadcastInDim S32 ![] bcast_S_S32 : I32[S_] → I32[S32]),
    binary main_v3 main_v11 main_v12 (addi : I32[S32] → I32[S32] → I32[S32]),
    ternary main_v10 main_v12 main_v3 main_v13 (select : I1[S32] → I32[S32] → I32[S32] → I32[S32]),
    unary main_v8 main_v14 (broadcastInDim S32x1 ![0] bcast_S32_S32x1_0 : I32[S32] → I32[S32x1]),
    unary main_v13 main_v15 (broadcastInDim S32x1 ![0] bcast_S32_S32x1_0 : I32[S32] → I32[S32x1]),
    binary main_v14 main_v15 main_v16 ((fun a b => concatenate S32x2 1 [⟨S32x1, a⟩, ⟨S32x1, b⟩] concatenates_S32x1_S32x1_S32x2_d1) : I32[S32x1] → I32[S32x1] → I32[S32x2]),
    binary main_arg2 main_v16 main_v17 ((fun x i => Host.gather gather_S64x64x8_S32x2_S32x8_1_01_n_n_01_1_118 x i) : F32[S64x64x8] → I32[S32x2] → F32[S32x8]),
    unary main_v17 main_v18 (broadcastInDim S1x1x32x8 ![2, 3] bcast_S32x8_S1x1x32x8_2_3 : F32[S32x8] → F32[S1x1x32x8]),
    unary main_arg2 main_v19 (broadcastInDim S64x64x1x8 ![0, 1, 3] bcast_S64x64x8_S64x64x1x8_0_1_3 : F32[S64x64x8] → F32[S64x64x1x8]),
    unary main_v18 main_v20 (broadcastInDim S64x64x32x8 ![0, 1, 2, 3] bcast_S1x1x32x8_S64x64x32x8_0_1_2_3 : F32[S1x1x32x8] → F32[S64x64x32x8]),
    unary main_v19 main_v21 (broadcastInDim S64x64x32x8 ![0, 1, 2, 3] bcast_S64x64x1x8_S64x64x32x8_0_1_2_3 : F32[S64x64x1x8] → F32[S64x64x32x8]),
    binary main_v20 main_v21 main_v22 (subf : F32[S64x64x32x8] → F32[S64x64x32x8] → F32[S64x64x32x8]),
    unary main_v22 main_v23 (Host.absf : F32[S64x64x32x8] → F32[S64x64x32x8]),
    unary main_v23 main_v24 (Host.negf : F32[S64x64x32x8] → F32[S64x64x32x8]),
    unary main_v24 main_v25 (Host.exp : F32[S64x64x32x8] → F32[S64x64x32x8]),
    nullary main_cst (constant S_ .f32 0x00000000#32),
    binary main_v25 main_cst main_v26 ((fun x v => Host.reduceAdd x v reducesTo_S64x64x32x8_S64x64x32_d3 h_S_) : F32[S64x64x32x8] → F32[S_] → F32[S64x64x32]),
    nullary main_c_4 (constantI S_ 32 64#32),
    unary main_c_4 main_v27 (broadcastInDim S32 ![] bcast_S_S32 : I32[S_] → I32[S32]),
    binary main_v1 main_v27 main_v28 (muli : I32[S32] → I32[S32] → I32[S32]),
    binary main_v28 main_v3 main_v29 (addi : I32[S32] → I32[S32] → I32[S32]),
    nullary main_c_5 (constantI S_ 32 64#32),
    TRef.unary (.of main_c_5 : TRef sig ⟨S_, .i32⟩) main_call0.v0 id,
    TRef.unary main_call0.v0 main_call0.v1 (broadcastInDim S32 ![] bcast_S_S32),
    TRef.binary (.of main_v29 : TRef sig ⟨S32, .i32⟩) main_call0.v1 main_call0.v2 Host.divsi,
    TRef.unary (.of main_v29 : TRef sig ⟨S32, .i32⟩) main_call0.v3 signi,
    TRef.unary main_call0.v0 main_call0.v4 signi,
    TRef.unary main_call0.v4 main_call0.v5 (broadcastInDim S32 ![] bcast_S_S32),
    TRef.binary main_call0.v3 main_call0.v5 main_call0.v6 (cmpi .ne),
    TRef.unary main_call0.v0 main_call0.v7 (broadcastInDim S32 ![] bcast_S_S32),
    TRef.binary (.of main_v29 : TRef sig ⟨S32, .i32⟩) main_call0.v7 main_call0.v8 Host.remsi,
    TRef.nullary main_call0.c (constantI S_ 32 0#32),
    TRef.unary main_call0.c main_call0.v9 (broadcastInDim S32 ![] bcast_S_S32),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32 ![] bcast_S_S32),
    TRef.binary main_call0.v2 main_call0.v12 main_call0.v13 subi,
    TRef.ternary main_call0.v11 main_call0.v13 main_call0.v2 main_call0.call0.v0 select,
    nullary main_c_6 (constantI S_ 32 64#32),
    TRef.unary (.of main_c_6 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32 ![] bcast_S_S32),
    TRef.binary (.of main_v29 : TRef sig ⟨S32, .i32⟩) main_call1.v3 main_call1.v4 Host.remsi,
    TRef.nullary main_call1.c_1 (constantI S_ 32 0#32),
    TRef.unary main_call1.c_1 main_call1.v5 (broadcastInDim S32 ![] bcast_S_S32),
    TRef.binary main_call1.v4 main_call1.v5 main_call1.v6 (cmpi .ne),
    TRef.nullary main_call1.c_2 (constantI S_ 32 0#32),
    TRef.unary main_call1.c_2 main_call1.v7 (broadcastInDim S32 ![] bcast_S_S32),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32 ![] bcast_S_S32),
    TRef.binary main_call1.v8 main_call1.v10 main_call1.v11 (cmpi .ne),
    TRef.binary main_call1.v11 main_call1.v6 main_call1.v12 andi,
    TRef.unary main_call1.call0.v0 main_call1.v13 (broadcastInDim S32 ![] bcast_S_S32),
    TRef.binary main_call1.v4 main_call1.v13 main_call1.v14 addi,
    TRef.ternary main_call1.v12 main_call1.v14 main_call1.v4 main_call1.v15 select,
    nullary main_c_7 (constantI S_ 32 0#32),
    unary main_c_7 main_v32 (broadcastInDim S32 ![] bcast_S_S32 : I32[S_] → I32[S32]),
    binary main_v30 main_v32 main_v33 (cmpi .slt : I32[S32] → I32[S32] → I1[S32]),
    nullary main_c_8 (constantI S_ 32 64#32),
    unary main_c_8 main_v34 (broadcastInDim S32 ![] bcast_S_S32 : I32[S_] → I32[S32]),
    binary main_v30 main_v34 main_v35 (addi : I32[S32] → I32[S32] → I32[S32]),
    ternary main_v33 main_v35 main_v30 main_v36 (select : I1[S32] → I32[S32] → I32[S32] → I32[S32]),
    nullary main_c_9 (constantI S_ 32 0#32),
    unary main_c_9 main_v37 (broadcastInDim S32 ![] bcast_S_S32 : I32[S_] → I32[S32]),
    binary main_v31 main_v37 main_v38 (cmpi .slt : I32[S32] → I32[S32] → I1[S32]),
    nullary main_c_10 (constantI S_ 32 64#32),
    unary main_c_10 main_v39 (broadcastInDim S32 ![] bcast_S_S32 : I32[S_] → I32[S32]),
    binary main_v31 main_v39 main_v40 (addi : I32[S32] → I32[S32] → I32[S32]),
    ternary main_v38 main_v40 main_v31 main_v41 (select : I1[S32] → I32[S32] → I32[S32] → I32[S32]),
    unary main_v36 main_v42 (broadcastInDim S32x1 ![0] bcast_S32_S32x1_0 : I32[S32] → I32[S32x1]),
    unary main_v41 main_v43 (broadcastInDim S32x1 ![0] bcast_S32_S32x1_0 : I32[S32] → I32[S32x1]),
    binary main_v42 main_v43 main_v44 ((fun a b => concatenate S32x2 1 [⟨S32x1, a⟩, ⟨S32x1, b⟩] concatenates_S32x1_S32x1_S32x2_d1) : I32[S32x1] → I32[S32x1] → I32[S32x2]),
    binary main_arg0 main_v44 main_v45 ((fun x i => Host.gather gather_S64x64x32_S32x2_S32x32_1_01_n_n_01_1_1132 x i) : F32[S64x64x32] → I32[S32x2] → F32[S32x32]),
    binary main_v45 main_arg1 main_v46 ((fun l r => Host.dotGeneral dot_S32x32_S32x32_S32x32_1_0_0_1_n_n none l r) : F32[S32x32] → F32[S32x32] → F32[S32x32]),
    binary main_v26 main_v46 main_v47 ((fun l r => Host.dotGeneral dot_S64x64x32_S32x32_S64x64x32_2_0_01_1_n_n none l r) : F32[S64x64x32] → F32[S32x32] → F32[S64x64x32]) ]

-- ninety-seven sequenced steps: re-associating them recurses once per statement
set_option maxRecDepth 4096 in
set_option maxHeartbeats 4000000 in
/-- @main is that straight line: the two windows, the four functions' definitions unfolded at their calls and the
    records at their fields, both sides are one chain of steps once sequencing is reassociated. -/
theorem main_eq (c : Dev nD) : main (F := F) c = seq ops := by
  simp only [main, main_part0, main_part1, fn_floor_divide.body, fn_where.body, fn_remainder.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., unary_bufs_sub ..,
    unary_bufs_sub .., unary_bufs_sub .., unary_bufs_sub .., binary_bufs_sub .., unary_bufs_sub .., unary_bufs_sub ..,
    unary_bufs_sub .., nullary_bufs_sub .., binary_bufs_sub .., nullary_bufs_sub .., unary_bufs_sub .., binary_bufs_sub ..,
    binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    binary_bufs_sub .., binary_bufs_sub ..⟩

/-- Every execution of @main ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The two integer chains

Both gathers' start indices are computed from the constant station table alone: pure integer terms. -/

/-- The table's first column (the stations' grid rows), as a vector. -/
def col0 (t : IVec S32x2 32) : IVec S32 32 :=
  shapeCast S32 (extractStridedSlice S32x1 ![0, 0] t slices_S32x2_S32x1_0_0) shapeCasts_S32x1_S32

/-- The table's second column (the stations' grid columns), as a vector. -/
def col1 (t : IVec S32x2 32) : IVec S32 32 :=
  shapeCast S32 (extractStridedSlice S32x1 ![0, 1] t slices_S32x2_S32x1_0_1) shapeCasts_S32x1_S32

/-- A scalar broadcast to the thirty-two stations. -/
def splat {α : Type} (d : S_.Idx → α) : S32.Idx → α := broadcastInDim S32 ![] bcast_S_S32 d

/-- An index wrapped as jnp wraps a negative one: `v + 64` where `v < 0`, else `v`. -/
def wrap (v : IVec S32 32) : IVec S32 32 :=
  select (cmpi .slt v (splat (constantI S_ 32 0#32))) (addi v (splat (constantI S_ 32 64#32))) v

/-- Two columns side by side, as a table. -/
def cat2 {α : Type} (a b : S32x1.Idx → α) : S32x2.Idx → α :=
  concatenate S32x2 1 [⟨S32x1, a⟩, ⟨S32x1, b⟩] concatenates_S32x1_S32x1_S32x2_d1

/-- The concatenation of two columns, named: a function of the two columns alone. -/
theorem cat2_eq {α : Type} (a b : S32x1.Idx → α) :
    concatenate S32x2 1 [⟨S32x1, a⟩, ⟨S32x1, b⟩] concatenates_S32x1_S32x1_S32x2_d1 = cat2 a b := rfl

/-- Two vectors as the two columns of a table. -/
def cat (a b : IVec S32 32) : IVec S32x2 32 :=
  cat2 (broadcastInDim S32x1 ![0] bcast_S32_S32x1_0 a) (broadcastInDim S32x1 ![0] bcast_S32_S32x1_0 b)

/-- The flat grid index `64 * row + col` of every station. -/
def gid (t : IVec S32x2 32) : IVec S32 32 := addi (muli (col0 t) (splat (constantI S_ 32 64#32))) (col1 t)

/-- jnp's floor division by a scalar: the truncating quotient, less one where the signs differ and the
    truncating remainder is not zero. -/
def fdiv (x : IVec S32 32) (d : IVec S_ 32) : IVec S32 32 :=
  select
    (andi (cmpi .ne (signi x) (splat (signi d))) (cmpi .ne (Host.remsi x (splat d)) (splat (constantI S_ 32 0#32))))
    (subi (Host.divsi x (splat d)) (splat (constantI S_ 32 1#32)))
    (Host.divsi x (splat d))

/-- The divisor jnp's remainder uses: one in place of zero. -/
def safeDiv (d : IVec S_ 32) : IVec S_ 32 := select (cmpi .eq d (constantI S_ 32 0#32)) (constantI S_ 32 1#32) d

/-- jnp's remainder by a scalar: the truncating remainder, plus the divisor where it is not zero and its sign
    differs from the divisor's. -/
def frem (x : IVec S32 32) (d : IVec S_ 32) : IVec S32 32 :=
  select
    (andi
      (cmpi .ne (cmpi .slt (Host.remsi x (splat (safeDiv d))) (splat (constantI S_ 32 0#32)))
        (splat (cmpi .slt (safeDiv d) (constantI S_ 32 0#32))))
      (cmpi .ne (Host.remsi x (splat (safeDiv d))) (splat (constantI S_ 32 0#32))))
    (addi (Host.remsi x (splat (safeDiv d))) (splat (safeDiv d)))
    (Host.remsi x (splat (safeDiv d)))

/-- The first gather's start indices: the table's columns, wrapped, side by side. -/
def idxA : IVec S32x2 32 := cat (wrap (col0 RefFloat.stTable)) (wrap (col1 RefFloat.stTable))

/-- The second gather's start indices: the flat index divided back into row and column, wrapped, side by side. -/
def idxB : IVec S32x2 32 :=
  cat (wrap (fdiv (gid RefFloat.stTable) (constantI S_ 32 64#32))) (wrap (frem (gid RefFloat.stTable) (constantI S_ 32 64#32)))

attribute [local irreducible] Host.gather Host.reduceAdd in
set_option maxRecDepth 8192 in
set_option maxHeartbeats 1600000 in
/-- The fold at the result buffer is the float chain at the two integer chains: the fold unrolled, each operation's
    result at its own buffer is its function's value and at any other buffer what was there, the concatenations
    named so that their operands are rewritten too, and the typed references' casts the identity at these literal
    references; what is left are the two sides' definitions unfolded. The gathers and the reduction stay folded:
    the equation never looks inside them. -/
theorem v47_eq (V : Valuation τ sig (Elt F)) :
    after ops V (main_v47 : DevRef τ sig)
      = RefFloat.refFloat idxA idxB (V (main_arg0 : DevRef τ sig)) (V (main_arg1 : DevRef τ sig)) (V (main_arg2 : DevRef τ sig)) := by
  simp (disch := decide) only [after_cons, after_nil, cat2_eq, TRef.toBuf, TRef.ofBuf, cast_eq, id_eq,
    nullary_result', unary_result', binary_result', ternary_result', reshape_result',
    nullary_result_ne', unary_result_ne', binary_result_ne', ternary_result_ne', reshape_result_ne']
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

/-! ## The integer mathematics: both chains are the station table -/

set_option maxRecDepth 8192 in
/-- No station coordinate is negative, so the wrap leaves both columns as they are: entry by entry, by evaluation. -/
theorem idxA_eq : idxA = RefFloat.stTable := by
  funext i
  obtain ⟨k, q, rfl⟩ : ∃ (k : Fin 32) (q : Fin 2), i = ValueIdx.ix2 k q := ⟨i 0, i 1, ValueIdx.eq_ix2 i⟩
  revert k q
  decide

set_option maxRecDepth 8192 in
/-- Every coordinate is in [0, 63], so `(64 r + c) div 64 = r` and `(64 r + c) mod 64 = c` with no sign correction
    and no wrap: entry by entry, by evaluation. -/
theorem idxB_eq : idxB = RefFloat.stTable := by
  funext i
  obtain ⟨k, q, rfl⟩ : ∃ (k : Fin 32) (q : Fin 2), i = ValueIdx.ix2 k q := ⟨i 0, i 1, ValueIdx.eq_ix2 i⟩
  revert k q
  decide

/-- Every weakly fair execution of the reference's @main terminates with the result at the float chain of the
    arguments read at the station table (both gathers' start indices ARE that table: no station coordinate is
    negative, and (64 r + c) div 64 = r, (64 r + c) mod 64 = c for r, c below 64), and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = RefFloat.refFloat RefFloat.stTable RefFloat.stTable (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_, ?_, ?_, ?_⟩) (run_main m ρ)
  · refine (h c main_v47).trans ?_
    rw [v47_eq, idxA_eq, idxB_eq]
  · exact (h c main_arg0).trans (arg0_eq _)
  · exact (h c main_arg1).trans (arg1_eq _)
  · exact (h c main_arg2).trans (arg2_eq _)

end Cert.ReferenceIdeal.RefRun

end
-- ==== Proof.RefValue.lean ====
/-
  The reference's float chain read at one result index (i, j, f), at the extended reals: the sum over the 32
  stations of the similarity of grid point (i, j) to the station times the station's projected feature f.
-/
import proofs.«137411_g48833778155979_cont_8to1_c_18_27_alg».proof.Proof.Gen.ReferenceIdeal
import proofs.«137411_g48833778155979_cont_8to1_c_18_27_alg».proof.Proof.RefFloat
import proofs.«137411_g48833778155979_cont_8to1_c_18_27_alg».proof.Proof.Spec
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Idealize.ShloMosaic Idealize.ShloMosaic.ValueIdx

/-! ## The station table

Row k of the table holds (7k mod 64, 13k mod 64); read as signed integers and clamped into [0, 63] these are the
station's grid row and grid column. -/

/-- The table's first column at row k, read signed and clamped, is the station's grid row. -/
theorem stTable_row (k : Fin 32) :
    min (RefFloat.stTable (ix2 k (0 : Fin 2))).toInt.toNat 63 = (Cert.Spec.stRow k).val := by
  fin_cases k <;> rfl

/-- The table's second column at row k, read signed and clamped, is the station's grid column. -/
theorem stTable_col (k : Fin 32) :
    min (RefFloat.stTable (ix2 k (1 : Fin 2))).toInt.toNat 63 = (Cert.Spec.stCol k).val := by
  fin_cases k <;> rfl

/-! ## The two gathers

Both gathers collapse the two grid axes, take their start from the table's row, and keep the last axis whole: result
element (k, c) is the operand at (row k, column k, c). -/

/-- The operand index of the context gather at (k, c). -/
theorem gatherR_idx (k : Fin 32) (c : Fin 8) :
    gather_S64x64x8_S32x2_S32x8_1_01_n_n_01_1_118.operandIdx (ix2 k c) RefFloat.stTable
      = ix3 (Cert.Spec.stRow k) (Cert.Spec.stCol k) c := by
  funext a
  refine Fin.ext ?_
  match a with
  | ⟨0, _⟩ =>
    show gather_S64x64x8_S32x2_S32x8_1_01_n_n_01_1_118.start (ix2 k c) RefFloat.stTable 0
      + gather_S64x64x8_S32x2_S32x8_1_01_n_n_01_1_118.batchCoord (ix2 k c) 0
      + gather_S64x64x8_S32x2_S32x8_1_01_n_n_01_1_118.offCoord (ix2 k c) 0 = _
    rw [GatherDims.batchCoord_eq_zero _ _ _ List.not_mem_nil,
      GatherDims.offCoord_eq_zero _ _ _ (fun h => ((GatherDims.mem_sKept _ _).mp h).1 (by decide))]
    simp only [Nat.add_zero]
    exact stTable_row k
  | ⟨1, _⟩ =>
    show gather_S64x64x8_S32x2_S32x8_1_01_n_n_01_1_118.start (ix2 k c) RefFloat.stTable 1
      + gather_S64x64x8_S32x2_S32x8_1_01_n_n_01_1_118.batchCoord (ix2 k c) 1
      + gather_S64x64x8_S32x2_S32x8_1_01_n_n_01_1_118.offCoord (ix2 k c) 1 = _
    rw [GatherDims.batchCoord_eq_zero _ _ _ List.not_mem_nil,
      GatherDims.offCoord_eq_zero _ _ _ (fun h => ((GatherDims.mem_sKept _ _).mp h).1 (by decide))]
    simp only [Nat.add_zero]
    exact stTable_col k
  | ⟨2, _⟩ =>
    show gather_S64x64x8_S32x2_S32x8_1_01_n_n_01_1_118.start (ix2 k c) RefFloat.stTable 2
      + gather_S64x64x8_S32x2_S32x8_1_01_n_n_01_1_118.batchCoord (ix2 k c) 2
      + gather_S64x64x8_S32x2_S32x8_1_01_n_n_01_1_118.offCoord (ix2 k c) 2 = _
    rw [GatherDims.batchCoord_eq_zero _ _ _ List.not_mem_nil]
    unfold GatherDims.start
    rw [dif_neg (by decide)]
    simp only [Nat.add_zero, Nat.zero_add]
    rfl

/-- The operand index of the feature gather at (k, g). -/
theorem gatherX_idx (k : Fin 32) (g : Fin 32) :
    gather_S64x64x32_S32x2_S32x32_1_01_n_n_01_1_1132.operandIdx (ix2 k g) RefFloat.stTable
      = ix3 (Cert.Spec.stRow k) (Cert.Spec.stCol k) g := by
  funext a
  refine Fin.ext ?_
  match a with
  | ⟨0, _⟩ =>
    show gather_S64x64x32_S32x2_S32x32_1_01_n_n_01_1_1132.start (ix2 k g) RefFloat.stTable 0
      + gather_S64x64x32_S32x2_S32x32_1_01_n_n_01_1_1132.batchCoord (ix2 k g) 0
      + gather_S64x64x32_S32x2_S32x32_1_01_n_n_01_1_1132.offCoord (ix2 k g) 0 = _
    rw [GatherDims.batchCoord_eq_zero _ _ _ List.not_mem_nil,
      GatherDims.offCoord_eq_zero _ _ _ (fun h => ((GatherDims.mem_sKept _ _).mp h).1 (by decide))]
    simp only [Nat.add_zero]
    exact stTable_row k
  | ⟨1, _⟩ =>
    show gather_S64x64x32_S32x2_S32x32_1_01_n_n_01_1_1132.start (ix2 k g) RefFloat.stTable 1
      + gather_S64x64x32_S32x2_S32x32_1_01_n_n_01_1_1132.batchCoord (ix2 k g) 1
      + gather_S64x64x32_S32x2_S32x32_1_01_n_n_01_1_1132.offCoord (ix2 k g) 1 = _
    rw [GatherDims.batchCoord_eq_zero _ _ _ List.not_mem_nil,
      GatherDims.offCoord_eq_zero _ _ _ (fun h => ((GatherDims.mem_sKept _ _).mp h).1 (by decide))]
    simp only [Nat.add_zero]
    exact stTable_col k
  | ⟨2, _⟩ =>
    show gather_S64x64x32_S32x2_S32x32_1_01_n_n_01_1_1132.start (ix2 k g) RefFloat.stTable 2
      + gather_S64x64x32_S32x2_S32x32_1_01_n_n_01_1_1132.batchCoord (ix2 k g) 2
      + gather_S64x64x32_S32x2_S32x32_1_01_n_n_01_1_1132.offCoord (ix2 k g) 2 = _
    rw [GatherDims.batchCoord_eq_zero _ _ _ List.not_mem_nil]
    unfold GatherDims.start
    rw [dif_neg (by decide)]
    simp only [Nat.add_zero, Nat.zero_add]
    rfl

/-- The stations' context rows at (k, c): R at the station's grid point. -/
theorem stationCtx_apply (R : FVec Ideal S64x64x8 .f32) (k : Fin 32) (c : Fin 8) :
    RefFloat.stationCtx (F := Ideal) RefFloat.stTable R (ix2 k c)
      = R (ix3 (Cert.Spec.stRow k) (Cert.Spec.stCol k) c) := by
  unfold RefFloat.stationCtx Host.gather
  rw [gatherR_idx]

/-- The stations' feature rows at (k, g): x at the station's grid point. -/
theorem stationFeat_apply (x : FVec Ideal S64x64x32 .f32) (k g : Fin 32) :
    Host.gather gather_S64x64x32_S32x2_S32x32_1_01_n_n_01_1_1132 x RefFloat.stTable (ix2 k g)
      = x (ix3 (Cert.Spec.stRow k) (Cert.Spec.stCol k) g) := by
  unfold Host.gather
  rw [gatherX_idx]

/-! ## The broadcasts and the pointwise chain -/

/-- The stations' rows broadcast over the grid read, at (i, j, k, c), the row of station k at channel c. -/
theorem bcastStation_apply (h1 : S32x8.BroadcastsInDim S1x1x32x8 (![2, 3] : Fin 2 → Fin S1x1x32x8.rank))
    (h2 : S1x1x32x8.BroadcastsInDim S64x64x32x8 (![0, 1, 2, 3] : Fin 4 → Fin S64x64x32x8.rank))
    (A : FVec Ideal S32x8 .f32) (i j : Fin 64) (k : Fin 32) (c : Fin 8) :
    broadcastInDim S64x64x32x8 ![0, 1, 2, 3] h2 (broadcastInDim S1x1x32x8 ![2, 3] h1 A) (ix4 i j k c)
      = A (ix2 k c) := by
  unfold broadcastInDim
  exact congrArg A (funext fun a => Fin.ext (by match a with | ⟨0, _⟩ => rfl | ⟨1, _⟩ => rfl))

/-- The grid's rows broadcast over the stations read, at (i, j, k, c), the row of grid point (i, j) at channel c. -/
theorem bcastGrid_apply (h1 : S64x64x8.BroadcastsInDim S64x64x1x8 (![0, 1, 3] : Fin 3 → Fin S64x64x1x8.rank))
    (h2 : S64x64x1x8.BroadcastsInDim S64x64x32x8 (![0, 1, 2, 3] : Fin 4 → Fin S64x64x32x8.rank))
    (A : FVec Ideal S64x64x8 .f32) (i j : Fin 64) (k : Fin 32) (c : Fin 8) :
    broadcastInDim S64x64x32x8 ![0, 1, 2, 3] h2 (broadcastInDim S64x64x1x8 ![0, 1, 3] h1 A) (ix4 i j k c)
      = A (ix3 i j c) := by
  unfold broadcastInDim
  exact congrArg A (funext fun a => Fin.ext (by match a with | ⟨0, _⟩ => rfl | ⟨1, _⟩ => rfl | ⟨2, _⟩ => rfl))

/-- e to the minus absolute value of a difference, elementwise: the absolute value is the larger of the difference
    and its negative. -/
theorem chain_apply (A B : FVec Ideal S64x64x32x8 .f32) (q : S64x64x32x8.Idx) :
    Host.exp (Host.negf (Host.absf (subf A B))) q = Ideal.exp (-(max (A q - B q) (-(A q - B q)))) := rfl

/-! ## The sum over the channels -/

/-- The sum over the last axis from the zero word: at (i, j, k) the sum over the 8 channels. -/
theorem reduce_apply (h : S64x64x32x8.ReducesTo [3] S64x64x32) (hu : 0 < S_.numel)
    (X : FVec Ideal S64x64x32x8 .f32) (i j : Fin 64) (k : Fin 32) :
    Host.reduceAdd (F := Ideal) X (constant (F := Ideal) S_ .f32 0x00000000#32) h hu (ix3 i j k)
      = ∑ c : Fin 8, X (ix4 i j k c) := by
  simp only [Host.reduceAdd, Ideal.hostReduceAdd_def]
  rw [Ideal.hostReduceAdd_single h (by decide)]
  rw [constant_apply, Ideal.ofBits_zero_f32, zero_add]
  refine Finset.sum_congr rfl fun c _ => ?_
  exact congrArg X (funext fun a => Fin.ext (by
    match a with | ⟨0, _⟩ => rfl | ⟨1, _⟩ => rfl | ⟨2, _⟩ => rfl | ⟨3, _⟩ => rfl))

/-- Every grid point's similarity to every station is the specification's. -/
theorem simArr_apply (R : FVec Ideal S64x64x8 .f32) (i j : Fin 64) (k : Fin 32) :
    RefFloat.simArr (F := Ideal) RefFloat.stTable R (ix3 i j k) = Cert.Spec.simRef R i j k := by
  unfold RefFloat.simArr
  rw [reduce_apply]
  unfold Cert.Spec.simRef
  refine Finset.sum_congr rfl fun c _ => ?_
  rw [chain_apply, bcastStation_apply, bcastGrid_apply, stationCtx_apply]

/-! ## The two contractions

Each contracts one axis: the contraction index is its one coordinate, and each operand's index reads the result's
coordinates on its free axes and that coordinate on its contracted axis. -/

theorem lhs_proj_0 (i : S32x32.Idx) (q : dot_S32x32_S32x32_S32x32_1_0_0_1_n_n.contr.Idx) :
    (dot_S32x32_S32x32_S32x32_1_0_0_1_n_n.lhsIdx i q 0).val = (i 0).val := by
  unfold DotDims.lhsIdx
  rw [dif_neg (show ¬(0 : Fin S32x32.rank) ∈ dot_S32x32_S32x32_S32x32_1_0_0_1_n_n.lhsBatch by decide),
    dif_pos (show (0 : Fin S32x32.rank) ∈ dot_S32x32_S32x32_S32x32_1_0_0_1_n_n.lhsNonContracting by decide)]
  rfl
theorem lhs_proj_1 (i : S32x32.Idx) (q : dot_S32x32_S32x32_S32x32_1_0_0_1_n_n.contr.Idx) :
    (dot_S32x32_S32x32_S32x32_1_0_0_1_n_n.lhsIdx i q 1).val = (q ⟨0, by decide⟩).val :=
  dot_S32x32_S32x32_S32x32_1_0_0_1_n_n.lhsIdx_val_of_single rfl i q
theorem rhs_proj_0 (i : S32x32.Idx) (q : dot_S32x32_S32x32_S32x32_1_0_0_1_n_n.contr.Idx) :
    (dot_S32x32_S32x32_S32x32_1_0_0_1_n_n.rhsIdx i q 0).val = (q ⟨0, by decide⟩).val :=
  dot_S32x32_S32x32_S32x32_1_0_0_1_n_n.rhsIdx_val_of_single rfl i q
theorem rhs_proj_1 (i : S32x32.Idx) (q : dot_S32x32_S32x32_S32x32_1_0_0_1_n_n.contr.Idx) :
    (dot_S32x32_S32x32_S32x32_1_0_0_1_n_n.rhsIdx i q 1).val = (i 1).val := by
  unfold DotDims.rhsIdx
  rw [dif_neg (show ¬(1 : Fin S32x32.rank) ∈ dot_S32x32_S32x32_S32x32_1_0_0_1_n_n.rhsBatch by decide),
    dif_pos (show (1 : Fin S32x32.rank) ∈ dot_S32x32_S32x32_S32x32_1_0_0_1_n_n.rhsNonContracting by decide)]
  rfl

/-- The [32, 32] by [32, 32] product at (k, f): the sum over the shared axis. -/
theorem projDot_apply (A B : FVec Ideal S32x32 .f32) (k f : Fin 32) :
    Host.dotGeneral (F := Ideal) dot_S32x32_S32x32_S32x32_1_0_0_1_n_n none A B (ix2 k f)
      = ∑ g : Fin 32, A (ix2 k g) * B (ix2 g f) := by
  simp only [Host.dotGeneral]
  rw [Ideal.dotGeneral_apply, ← Equiv.sum_comp (contrEquiv1 dot_S32x32_S32x32_S32x32_1_0_0_1_n_n 32 rfl rfl).symm]
  refine Finset.sum_congr rfl fun g _ => ?_
  have hk := contrEquiv1_symm_val dot_S32x32_S32x32_S32x32_1_0_0_1_n_n 32 rfl rfl g
  have el : dot_S32x32_S32x32_S32x32_1_0_0_1_n_n.lhsIdx (ix2 k f)
      ((contrEquiv1 dot_S32x32_S32x32_S32x32_1_0_0_1_n_n 32 rfl rfl).symm g) = ix2 k g :=
    funext fun a => Fin.ext (by
      match a with
      | ⟨0, _⟩ => exact lhs_proj_0 _ _
      | ⟨1, _⟩ => exact (lhs_proj_1 _ _).trans hk)
  have er : dot_S32x32_S32x32_S32x32_1_0_0_1_n_n.rhsIdx (ix2 k f)
      ((contrEquiv1 dot_S32x32_S32x32_S32x32_1_0_0_1_n_n 32 rfl rfl).symm g) = ix2 g f :=
    funext fun a => Fin.ext (by
      match a with
      | ⟨0, _⟩ => exact (rhs_proj_0 _ _).trans hk
      | ⟨1, _⟩ => exact rhs_proj_1 _ _)
  rw [el, er]

theorem lhs_out_0 (i : S64x64x32.Idx) (q : dot_S64x64x32_S32x32_S64x64x32_2_0_01_1_n_n.contr.Idx) :
    (dot_S64x64x32_S32x32_S64x64x32_2_0_01_1_n_n.lhsIdx i q 0).val = (i 0).val := by
  unfold DotDims.lhsIdx
  rw [dif_neg (show ¬(0 : Fin S64x64x32.rank) ∈ dot_S64x64x32_S32x32_S64x64x32_2_0_01_1_n_n.lhsBatch by decide),
    dif_pos (show (0 : Fin S64x64x32.rank) ∈ dot_S64x64x32_S32x32_S64x64x32_2_0_01_1_n_n.lhsNonContracting by decide)]
  rfl
theorem lhs_out_1 (i : S64x64x32.Idx) (q : dot_S64x64x32_S32x32_S64x64x32_2_0_01_1_n_n.contr.Idx) :
    (dot_S64x64x32_S32x32_S64x64x32_2_0_01_1_n_n.lhsIdx i q 1).val = (i 1).val := by
  unfold DotDims.lhsIdx
  rw [dif_neg (show ¬(1 : Fin S64x64x32.rank) ∈ dot_S64x64x32_S32x32_S64x64x32_2_0_01_1_n_n.lhsBatch by decide),
    dif_pos (show (1 : Fin S64x64x32.rank) ∈ dot_S64x64x32_S32x32_S64x64x32_2_0_01_1_n_n.lhsNonContracting by decide)]
  rfl
theorem lhs_out_2 (i : S64x64x32.Idx) (q : dot_S64x64x32_S32x32_S64x64x32_2_0_01_1_n_n.contr.Idx) :
    (dot_S64x64x32_S32x32_S64x64x32_2_0_01_1_n_n.lhsIdx i q 2).val = (q ⟨0, by decide⟩).val :=
  dot_S64x64x32_S32x32_S64x64x32_2_0_01_1_n_n.lhsIdx_val_of_single rfl i q
theorem rhs_out_0 (i : S64x64x32.Idx) (q : dot_S64x64x32_S32x32_S64x64x32_2_0_01_1_n_n.contr.Idx) :
    (dot_S64x64x32_S32x32_S64x64x32_2_0_01_1_n_n.rhsIdx i q 0).val = (q ⟨0, by decide⟩).val :=
  dot_S64x64x32_S32x32_S64x64x32_2_0_01_1_n_n.rhsIdx_val_of_single rfl i q
theorem rhs_out_1 (i : S64x64x32.Idx) (q : dot_S64x64x32_S32x32_S64x64x32_2_0_01_1_n_n.contr.Idx) :
    (dot_S64x64x32_S32x32_S64x64x32_2_0_01_1_n_n.rhsIdx i q 1).val = (i 2).val := by
  unfold DotDims.rhsIdx
  rw [dif_neg (show ¬(1 : Fin S32x32.rank) ∈ dot_S64x64x32_S32x32_S64x64x32_2_0_01_1_n_n.rhsBatch by decide),
    dif_pos (show (1 : Fin S32x32.rank) ∈ dot_S64x64x32_S32x32_S64x64x32_2_0_01_1_n_n.rhsNonContracting by decide)]
  rfl

/-- The [64, 64, 32] by [32, 32] product at (i, j, f): the sum over the stations. -/
theorem outDot_apply (A : FVec Ideal S64x64x32 .f32) (B : FVec Ideal S32x32 .f32) (i j : Fin 64) (f : Fin 32) :
    Host.dotGeneral (F := Ideal) dot_S64x64x32_S32x32_S64x64x32_2_0_01_1_n_n none A B (ix3 i j f)
      = ∑ k : Fin 32, A (ix3 i j k) * B (ix2 k f) := by
  simp only [Host.dotGeneral]
  rw [Ideal.dotGeneral_apply,
    ← Equiv.sum_comp (contrEquiv1 dot_S64x64x32_S32x32_S64x64x32_2_0_01_1_n_n 32 rfl rfl).symm]
  refine Finset.sum_congr rfl fun k _ => ?_
  have hk := contrEquiv1_symm_val dot_S64x64x32_S32x32_S64x64x32_2_0_01_1_n_n 32 rfl rfl k
  have el : dot_S64x64x32_S32x32_S64x64x32_2_0_01_1_n_n.lhsIdx (ix3 i j f)
      ((contrEquiv1 dot_S64x64x32_S32x32_S64x64x32_2_0_01_1_n_n 32 rfl rfl).symm k) = ix3 i j k :=
    funext fun a => Fin.ext (by
      match a with
      | ⟨0, _⟩ => exact lhs_out_0 _ _
      | ⟨1, _⟩ => exact lhs_out_1 _ _
      | ⟨2, _⟩ => exact (lhs_out_2 _ _).trans hk)
  have er : dot_S64x64x32_S32x32_S64x64x32_2_0_01_1_n_n.rhsIdx (ix3 i j f)
      ((contrEquiv1 dot_S64x64x32_S32x32_S64x64x32_2_0_01_1_n_n 32 rfl rfl).symm k) = ix2 k f :=
    funext fun a => Fin.ext (by
      match a with
      | ⟨0, _⟩ => exact (rhs_out_0 _ _).trans hk
      | ⟨1, _⟩ => exact rhs_out_1 _ _)
  rw [el, er]

/-- The stations' feature rows times W is the specification's projection. -/
theorem projArr_apply (x : FVec Ideal S64x64x32 .f32) (W : FVec Ideal S32x32 .f32) (k f : Fin 32) :
    RefFloat.projArr (F := Ideal) RefFloat.stTable x W (ix2 k f) = Cert.Spec.proj x W k f := by
  unfold RefFloat.projArr
  rw [projDot_apply]
  unfold Cert.Spec.proj
  refine Finset.sum_congr rfl fun g _ => ?_
  rw [stationFeat_apply]

/-- The float chain, gathered at the station table, at result index (i, j, f). -/
theorem refFloat_apply (x : FVec Ideal S64x64x32 .f32) (W : FVec Ideal S32x32 .f32) (R : FVec Ideal S64x64x8 .f32)
    (i j : Fin 64) (f : Fin 32) :
    RefFloat.refFloat (F := Ideal) RefFloat.stTable RefFloat.stTable x W R (ix3 i j f)
      = Cert.Spec.outRef x W R i j f := by
  unfold RefFloat.refFloat
  rw [outDot_apply]
  unfold Cert.Spec.outRef
  refine Finset.sum_congr rfl fun k _ => ?_
  rw [simArr_apply, projArr_apply]

end Cert.ReferenceIdeal.RefValue

end
-- ==== Proof.Bridge.lean ====
/-
  The two spellings of the result are one function when every entry of R is a real number.

  For real a, b: e^(-a) e^b = e^(b - a) and e^a e^(-b) = e^(a - b); the exponential is monotone, so the smaller
  of the two is e to the smaller exponent, and the smaller of b - a and a - b is -|a - b| = -(max (a - b) (-(a - b))).
  The products of similarity and projection differ only in the order of the factors.
-/
import proofs.«137411_g48833778155979_cont_8to1_c_18_27_alg».proof.Proof.Spec

noncomputable section

namespace Cert.Spec

open Idealize.ShloMosaic Idealize.ShloMosaic.ValueIdx

/-- On the reals: the smaller of e^(-a) e^b and e^a e^(-b) is e^(-|a - b|). -/
theorem real_min_exp (a b : ℝ) :
    min (Real.exp (0 - a) * Real.exp b) (Real.exp a * Real.exp (0 - b)) = Real.exp (-(max (a - b) (-(a - b)))) := by
  rw [← Real.exp_add, ← Real.exp_add, ← Real.exp_monotone.map_min]
  congr 1
  rcases le_total (a - b) (-(a - b)) with h | h
  · rw [max_eq_right h, min_eq_right (by linarith)]; ring
  · rw [max_eq_left h, min_eq_left (by linarith)]; ring

/-- The embedding of the reals into the extended reals is monotone, so it carries max to max and min to min. -/
theorem coe_max_real (a b : ℝ) : ((max a b : ℝ) : EReal) = max (a : EReal) (b : EReal) :=
  EReal.coe_strictMono.monotone.map_max
theorem coe_min_real (a b : ℝ) : ((min a b : ℝ) : EReal) = min (a : EReal) (b : EReal) :=
  EReal.coe_strictMono.monotone.map_min

/-- The same on the extended reals at two real entries. -/
theorem ereal_min_exp (a b : ℝ) :
    min (Ideal.exp (0 - (a : EReal)) * Ideal.exp (b : EReal)) (Ideal.exp (a : EReal) * Ideal.exp (0 - (b : EReal)))
      = Ideal.exp (-(max ((a : EReal) - (b : EReal)) (-((a : EReal) - (b : EReal))))) := by
  have h0a : (0 : EReal) - (a : EReal) = ((0 - a : ℝ) : EReal) := by rw [EReal.coe_sub, EReal.coe_zero]
  have h0b : (0 : EReal) - (b : EReal) = ((0 - b : ℝ) : EReal) := by rw [EReal.coe_sub, EReal.coe_zero]
  have hab : (a : EReal) - (b : EReal) = ((a - b : ℝ) : EReal) := (EReal.coe_sub a b).symm
  rw [h0a, h0b, hab, ← EReal.coe_neg, ← coe_max_real, ← EReal.coe_neg]
  simp only [Ideal.exp_coe]
  rw [← EReal.coe_mul, ← EReal.coe_mul, ← coe_min_real, real_min_exp]

/-- The kernel's spelling of the similarity is the reference's when R's entries are real. -/
theorem simKer_eq_simRef (R : RArr) (hR : ∀ idx, ∃ r : ℝ, R idx = (r : EReal)) (i j : Fin 64) (k : Fin 32) :
    simKer R i j k = simRef R i j k := by
  unfold simKer simRef
  refine Finset.sum_congr rfl fun c _ => ?_
  obtain ⟨a, ha⟩ := hR (ix3 (stRow k) (stCol k) c)
  obtain ⟨b, hb⟩ := hR (ix3 i j c)
  rw [ha, hb]
  exact ereal_min_exp a b

/-- The two results agree at every index when R's entries are real. -/
theorem outKer_eq_outRef (x : XArr) (W : WArr) (R : RArr) (hR : ∀ idx, ∃ r : ℝ, R idx = (r : EReal))
    (i j : Fin 64) (f : Fin 32) : outKer x W R i j f = outRef x W R i j f := by
  unfold outKer outRef
  refine Finset.sum_congr rfl fun k _ => ?_
  rw [simKer_eq_simRef R hR i j k, mul_comm]

end Cert.Spec

end
-- ==== Proof.Finite.lean ====
/-
  The precondition read back: it is the conjunction of three "every entry's absolute value is below +infinity"
  tests, one per argument array; an extended real whose absolute value is below +infinity is a real number.
  Only the third array's test (R) is used.
-/
import proofs.«137411_g48833778155979_cont_8to1_c_18_27_alg».proof.Pre_finite_inputs
import proofs.«137411_g48833778155979_cont_8to1_c_18_27_alg».proof.Proof.Gen.Pre_finite_inputs
import Idealize.ShloMosaic.Lib.ReduceAll
import Idealize.ShloMosaic.PureOps.Ideal.Laws
import Idealize.ShloMosaic.Lib.ValueIdx

noncomputable section

namespace Cert.Finite

open Idealize.ShloMosaic Cert.Pre_finite_inputs Cert.Pre_finite_inputs.Gen

/-- The rank-0 shape has one index. -/
instance : Subsingleton S_.Idx := ⟨fun _ _ => funext fun d => d.elim0⟩

/-- The word 0x7F800000 denotes +infinity. -/
theorem inf_word : Ideal.ofBits .f32 0x7F800000#32 = (⊤ : EReal) := by simp [Ideal.ofBits, Ideal.ieee]

/-- An extended real whose absolute value max x (-x) is strictly below +infinity is a real number. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- Under the precondition every entry of the third argument array is a real number. -/
theorem third_real (x : FVec Ideal S64x64x32 .f32) (W : FVec Ideal S32x32 .f32) (R : FVec Ideal S64x64x8 .f32)
    (h : fn (F := Ideal) x W R = fun _ => 1#1) : ∀ idx, ∃ r : ℝ, R idx = (r : EReal) := by
  have h0 := congrFun h ValueIdx.ix0
  dsimp only [fn] at h0
  obtain ⟨_, h2⟩ := IntOp.andi_eq_one.1 h0
  intro idx
  have h3 := Host.reduce_andi_all _ _ _ _ _ h2 idx
  have h4 : Ideal.cmp .olt (max (R idx) (-(R idx))) (Ideal.ofBits .f32 0x7F800000#32) = 1#1 := h3
  rw [inf_word] at h4
  have h5 : BitVec.ofBool (decide (max (R idx) (-(R idx)) < (⊤ : EReal))) = 1#1 := h4
  refine real_of_abs_lt_top (R idx) ?_
  by_contra hc
  rw [decide_eq_false hc] at h5
  exact absurd h5 (by decide)

end Cert.Finite

end
-- ==== Proof.lean ====
/-
  The certificate's five claims.

  The kernel computes, for every grid point (i, j) of the 64 x 64 grid and output feature f, the sum over the 32
  stations k of (station k's feature row of x times W) at f times the similarity of (i, j) to station k, where the
  similarity sums e^(-|R[station k, c] - R[i, j, c]|) over the 8 context channels. The reference writes the
  similarity with the absolute value; the kernel as min (e^(-a) e^b) (e^a e^(-b)), which is the same number when a
  and b are real, and that is where the precondition (every entry finite) is used, for R only. The two contractions
  differ in the order of the factors of each product.

  The frames of the two kernel programs are the generated ones; the reference's frame is its run with the result
  dropped; nothing was rewritten by the ideal pass, so the idealization claim is trivial.
-/
import proofs.«137411_g48833778155979_cont_8to1_c_18_27_alg».proof.Defs
import proofs.«137411_g48833778155979_cont_8to1_c_18_27_alg».proof.Proof.Gen.Kernel
import proofs.«137411_g48833778155979_cont_8to1_c_18_27_alg».proof.Proof.Gen.Kernel.Frame
import proofs.«137411_g48833778155979_cont_8to1_c_18_27_alg».proof.Proof.Gen.KernelIdeal
import proofs.«137411_g48833778155979_cont_8to1_c_18_27_alg».proof.Proof.Gen.KernelIdeal.Frame
import proofs.«137411_g48833778155979_cont_8to1_c_18_27_alg».proof.Proof.Gen.ReferenceIdeal
import proofs.«137411_g48833778155979_cont_8to1_c_18_27_alg».proof.Proof.Gen.Pre_finite_inputs
import proofs.«137411_g48833778155979_cont_8to1_c_18_27_alg».proof.Proof.KernelRun
import proofs.«137411_g48833778155979_cont_8to1_c_18_27_alg».proof.Proof.RefRun
import proofs.«137411_g48833778155979_cont_8to1_c_18_27_alg».proof.Proof.RefValue
import proofs.«137411_g48833778155979_cont_8to1_c_18_27_alg».proof.Proof.Bridge
import proofs.«137411_g48833778155979_cont_8to1_c_18_27_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's equation dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the same result array: index by index the kernel's value is the kernel's spelling of the
    specification, the reference's the reference's spelling, and the two spellings agree where R is real. -/
theorem algebraic : Cert.algebraic_KernelIdeal_ReferenceIdeal := by
  intro m ρ m' ρ' hpre hagree
  refine ⟨fun c => Cert.KernelIdeal.KRun.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext idx
  obtain ⟨i, j, f, rfl⟩ : ∃ (i j : Fin 64) (f : Fin 32), idx = ix3 i j f := ⟨idx 0, idx 1, idx 2, eq_ix3 idx⟩
  rw [Cert.ReferenceIdeal.RefValue.refFloat_apply]
  show _ = Cert.KernelIdeal.KRun.kerOut _ _ _ (ix3 i j f)
  rw [Cert.KernelIdeal.KRun.kerOut_apply]
  exact (Cert.Spec.outKer_eq_outRef _ _ _ (Cert.Finite.third_real _ _ _ (hpre c)) i j f).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
